-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S50000x256 : S_.BroadcastsInDim S50000x256 (![] : Fin 0 → Fin S50000x256.rank)
  reducesTo_S50000x256_S_d0_1 : S50000x256.ReducesTo [0, 1] S_

variable [Facts]

def fn_part1 {F : FTy → Type} [FloatOps F] (main_arg5 : FVec F S64 .f32) (main_arg6 : FVec F S50000x256 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S50000x256 .f32 := Host.absf main_arg6
  let main_cst_8 : FVec F S_ .f32 := constant S_ .f32 0x7F800000#32
  let main_v25 : FVec F S50000x256 .f32 := broadcastInDim S50000x256 ![] bcast_S_S50000x256 main_cst_8
  let main_v26 : IVec S50000x256 1 := cmpf .olt main_v24 main_v25
  let main_c_9 : IVec S_ 1 := constantI S_ 1 1#1
  let main_v27 : IVec S_ 1 := (fun x v => Host.reduce IntOp.andi x v reducesTo_S50000x256_S_d0_1 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) (main_arg6 : FVec F S50000x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 85
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000x256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x64_S2000x64_1_0_0_1_n_n_wf : DotDims.WF S2000x256 S256x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000x256 : Shape := ⟨2, ![50000, 256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000x256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x256, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000, .f32⟩
  | .hbm, ⟨90, _⟩ => ⟨S850000, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x64, .f32⟩
  | .hbm, ⟨100, _⟩ => ⟨S850000x1, .f32⟩
  | .hbm, ⟨101, _⟩ => ⟨S850000x64, .f32⟩
  | .hbm, ⟨102, _⟩ => ⟨S850000x64, .f32⟩
  | .hbm, ⟨103, _⟩ => ⟨S_, .f32⟩
  | .hbm, ⟨104, _⟩ => ⟨S50000x64, .f32⟩
  | .hbm, ⟨105, _⟩ => ⟨S850000x1, .i32⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000, .f32⟩
  | .hbm, ⟨112, _⟩ => ⟨S_, .f32⟩
  | .hbm, ⟨113, _⟩ => ⟨S50000, .f32⟩
  | .hbm, ⟨114, _⟩ => ⟨S50000, .f32⟩
  | .hbm, ⟨115, _⟩ => ⟨S50000x1, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S_, .f32⟩
  | .hbm, ⟨120, _⟩ => ⟨S50000, .f32⟩
  | .hbm, ⟨121, _⟩ => ⟨S50000x1, .f32⟩
  | .hbm, ⟨122, _⟩ => ⟨S50000x1, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_call2_cst : Ref sig .tc := ⟨.hbm, 110, rfl⟩
abbrev main_call2_v0 : Ref sig .tc := ⟨.hbm, 111, rfl⟩
abbrev main_call2_cst_0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_cst_1 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_v81 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Layers.lean ====
/-
  The network's layers, each as one function of the values that enter it, over the reference's shapes.

  A two-layer graph convolution on 50000 nodes and 800000 edges. Every node gets a self-loop, so there are 850000
  (source, target) pairs; deg(v) counts the pairs that end in v, and pair e carries the weight
  1/√deg(src e) · 1/√deg(dst e) (zero where a degree is zero). A layer is a dense product, then for every node the sum
  over the pairs that end in it of the source node's row times the pair's weight, then a bias; the hidden layer goes
  on with max(·, 0) times a given mask, the output layer with a row-wise log-softmax.

  The edge list enters only through `src`, `dst` and `norm`. The two programs compared apply the same host
  operations to them, so nothing below opens a gather or a scatter: the sums over edges stay the functions
  `agg256` and `agg64` of the array they are applied to.
-/
import proofs.«124619_j9998683865528_1_alg».proof.Proof.Gen.ReferenceIdeal

noncomputable section

namespace Cert.Layers

open Cert.ReferenceIdeal Cert.ReferenceIdeal.Gen Idealize.ShloMosaic Idealize.ShloMosaic.TcCoe

variable {F : FTy → Type} [FloatOps F]

/-! ## The graph -/

/-- The source node of each pair: row 0 of the edge list, then every node once (the self-loops). -/
def src (ei : (⟨S2x800000, .i32⟩ : BufTy).Contents (Elt F)) : (⟨S850000, .i32⟩ : BufTy).Contents (Elt F) :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The target node of each pair: row 1 of the edge list, then every node once. -/
def dst (ei : (⟨S2x800000, .i32⟩ : BufTy).Contents (Elt F)) : (⟨S850000, .i32⟩ : BufTy).Contents (Elt F) :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- A list of node numbers as a column of one-entry index vectors. -/
def col (s : (⟨S850000, .i32⟩ : BufTy).Contents (Elt F)) : (⟨S850000x1, .i32⟩ : BufTy).Contents (Elt F) :=
  broadcastInDim S850000x1 ![0] bcast_S850000_S850000x1_0 s

/-- The same column with a negative number counted from the end (n ↦ n + 50000), as an indexed read does. -/
def wrap (s : (⟨S850000, .i32⟩ : BufTy).Contents (Elt F)) : (⟨S850000x1, .i32⟩ : BufTy).Contents (Elt F) :=
  col (select (cmpi .slt s (broadcastInDim S850000 ![] bcast_S_S850000 (constantI S_ 32 0#32)))
    (addi s (broadcastInDim S850000 ![] bcast_S_S850000 (constantI S_ 32 50000#32))) s)

/-- deg(v): the number of pairs that end in v, as a sum of ones. -/
def deg (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (col (dst ei))
    (broadcastInDim S850000 ![] bcast_S_S850000 (constant S_ .f32 0x3F800000#32))

/-- 1/√deg(v) where deg(v) > 0, else 0. -/
def invSqrtDeg (ei : (⟨S2x800000, .i32⟩ : BufTy).Contents (Elt F)) : (⟨S50000, .f32⟩ : BufTy).Contents (Elt F) :=
  select (cmpf .ogt (deg ei) (broadcastInDim S50000 ![] bcast_S_S50000 (constant S_ .f32 0x00000000#32)))
    (Host.rsqrt (deg ei))
    (broadcastInDim S50000 ![] bcast_S_S50000 (constant S_ .f32 0x00000000#32))

/-- The weight of each pair: 1/√deg(src) · 1/√deg(dst). -/
def norm (ei : (⟨S2x800000, .i32⟩ : BufTy).Contents (Elt F)) : (⟨S850000, .f32⟩ : BufTy).Contents (Elt F) :=
  mulf (Host.gather gather_S50000_S850000x1_S850000_n_0_n_n_0_1_1 (invSqrtDeg ei) (wrap (src ei)))
    (Host.gather gather_S50000_S850000x1_S850000_n_0_n_n_0_1_1 (invSqrtDeg ei) (wrap (dst ei)))

/-! ## The layers -/

/-- The hidden layer's dense product x · W₁. -/
def dense1 (x : (⟨S50000x128, .f32⟩ : BufTy).Contents (Elt F)) (w : (⟨S128x256, .f32⟩ : BufTy).Contents (Elt F)) : (⟨S50000x256, .f32⟩ : BufTy).Contents (Elt F) :=
  Host.dotGeneral dot_S50000x128_S128x256_S50000x256_1_0_0_1_n_n none x w

/-- The output layer's dense product h · W₂. -/
def dense2 (h : (⟨S50000x256, .f32⟩ : BufTy).Contents (Elt F)) (w : (⟨S256x64, .f32⟩ : BufTy).Contents (Elt F)) : (⟨S50000x64, .f32⟩ : BufTy).Contents (Elt F) :=
  Host.dotGeneral dot_S50000x256_S256x64_S50000x64_1_0_0_1_n_n none h w

/-- The weighted sum over incoming pairs at width 256: row v of the result is the sum, over the pairs that end in v,
    of the source node's row of `h` times the pair's weight. -/
def agg256 (h : (⟨S50000x256, .f32⟩ : BufTy).Contents (Elt F)) (ei : (⟨S2x800000, .i32⟩ : BufTy).Contents (Elt F)) : (⟨S50000x256, .f32⟩ : BufTy).Contents (Elt F) :=
  Host.scatterAdd scatter_S50000x256_S850000x1_S850000x256_1_0_0_1
    (broadcastInDim S50000x256 ![] bcast_S_S50000x256 (constant S_ .f32 0x00000000#32))
    (col (dst ei))
    (mulf (Host.gather gather_S50000x256_S850000x1_S850000x256_1_0_n_n_0_1_1256 h (wrap (src ei)))
      (broadcastInDim S850000x256 ![0, 1] bcast_S850000x1_S850000x256_0_1 (broadcastInDim S850000x1 ![0] bcast_S850000_S850000x1_0 (norm ei))))

/-- The same sum at width 64. -/
def agg64 (h : (⟨S50000x64, .f32⟩ : BufTy).Contents (Elt F)) (ei : (⟨S2x800000, .i32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (col (dst ei))
    (mulf (Host.gather gather_S50000x64_S850000x1_S850000x64_1_0_n_n_0_1_164 h (wrap (src ei)))
      (broadcastInDim S850000x64 ![0, 1] bcast_S850000x1_S850000x64_0_1 (broadcastInDim S850000x1 ![0] bcast_S850000_S850000x1_0 (norm ei))))

/-- The hidden activation: max(a + b, 0) · mask, the bias repeated down the rows. -/
def act1 (a : (⟨S50000x256, .f32⟩ : BufTy).Contents (Elt F)) (b : (⟨S256, .f32⟩ : BufTy).Contents (Elt F)) (mask : (⟨S50000x256, .f32⟩ : BufTy).Contents (Elt F)) : (⟨S50000x256, .f32⟩ : BufTy).Contents (Elt F) :=
  mulf (maximumf (addf a (broadcastInDim S50000x256 ![0, 1] bcast_S1x256_S50000x256_0_1 (broadcastInDim S1x256 ![1] bcast_S256_S1x256_1 b)))
    (broadcastInDim S50000x256 ![] bcast_S_S50000x256 (constant S_ .f32 0x00000000#32))) mask

/-- The logits: z + b, the bias repeated down the rows. -/
def logits (z : (⟨S50000x64, .f32⟩ : BufTy).Contents (Elt F)) (b : (⟨S64, .f32⟩ : BufTy).Contents (Elt F)) : (⟨S50000x64, .f32⟩ : BufTy).Contents (Elt F) :=
  addf z (broadcastInDim S50000x64 ![0, 1] bcast_S1x64_S50000x64_0_1 (broadcastInDim S1x64 ![1] bcast_S64_S1x64_1 b))

/-- A value per row repeated along the row. -/
def alongRows (v : (⟨S50000x1, .f32⟩ : BufTy).Contents (Elt F)) : (⟨S50000x64, .f32⟩ : BufTy).Contents (Elt F) :=
  broadcastInDim S50000x64 ![0, 1] bcast_S50000x1_S50000x64_0_1 v

/-- A value per row as a one-entry column. -/
def asColumn (v : (⟨S50000, .f32⟩ : BufTy).Contents (Elt F)) : (⟨S50000x1, .f32⟩ : BufTy).Contents (Elt F) :=
  broadcastInDim S50000x1 ![0] bcast_S50000_S50000x1_0 v

/-- The logits minus their row maximum (the maximum taken from −∞, and once more against −∞). -/
def shifted (z : (⟨S50000x64, .f32⟩ : BufTy).Contents (Elt F)) (b : (⟨S64, .f32⟩ : BufTy).Contents (Elt F)) : (⟨S50000x64, .f32⟩ : BufTy).Contents (Elt F) :=
  subf (logits z b)
    (alongRows (asColumn
      (maximumf (broadcastInDim S50000 ![] bcast_S_S50000 (constant S_ .f32 0xFF800000#32))
        (Host.reduce FloatOps.maximumf (logits z b) (constant S_ .f32 0xFF800000#32) reducesTo_S50000x64_S50000_d1 h_S_))))

/-- The row-wise log-softmax of z + b: the shifted logits minus the log of the row sum of their exponentials. -/
def lsm (z : (⟨S50000x64, .f32⟩ : BufTy).Contents (Elt F)) (b : (⟨S64, .f32⟩ : BufTy).Contents (Elt F)) : (⟨S50000x64, .f32⟩ : BufTy).Contents (Elt F) :=
  subf (shifted z b)
    (alongRows (Host.log (asColumn
      (Host.reduceAdd (Host.exp (shifted z b)) (constant S_ .f32 0x00000000#32) reducesTo_S50000x64_S50000_d1 h_S_))))

/-- The whole network. -/
def network (x : (⟨S50000x128, .f32⟩ : BufTy).Contents (Elt F)) (ei : (⟨S2x800000, .i32⟩ : BufTy).Contents (Elt F)) (w1 : (⟨S128x256, .f32⟩ : BufTy).Contents (Elt F)) (b1 : (⟨S256, .f32⟩ : BufTy).Contents (Elt F))
    (w2 : (⟨S256x64, .f32⟩ : BufTy).Contents (Elt F)) (b2 : (⟨S64, .f32⟩ : BufTy).Contents (Elt F)) (mask : (⟨S50000x256, .f32⟩ : BufTy).Contents (Elt F)) : (⟨S50000x64, .f32⟩ : BufTy).Contents (Elt F) :=
  lsm (agg64 (dense2 (act1 (agg256 (dense1 x w1) ei) b1 mask) w2) ei) b2

end Cert.Layers

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Region0.lean ====
/-
  The first pallas_call: x · W₁ computed 2000 rows at a time.

  Each of the 25 grid points loads rows [2000 t, 2000 t + 2000) of x and the whole of W₁ and stores their product into
  the same rows of the output. The contraction runs over all 128 columns inside one point, so an entry of a block is
  the entry of the whole product  ∑ q < 128, x (r, q) · W₁ (q, v)  (the change of float format before the product is
  the identity on the ideal values), and the 25 row blocks tile the 50000 rows: the output array ends as the
  reference's dense product of the two arrays the region found.
-/
import proofs.«124619_j9998683865528_1_alg».proof.Proof.Gen.KernelIdeal.Frame
import proofs.«124619_j9998683865528_1_alg».proof.Proof.Layers
import proofs.«124619_j9998683865528_1_alg».proof.Proof.LibDotRowsCols
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The two products, entry by entry -/

/-- The block product's dimension numbers: [2000 × 128] · [128 × 256], rows by columns. -/
theorem rowsCols_block : Cert.Lib.DotRowsCols.RowsCols dot_S2000x128_S128x256_S2000x256_1_0_0_1_n_n :=
  ⟨rfl, rfl, rfl, rfl, rfl, rfl⟩

/-- The whole product's dimension numbers: [50000 × 128] · [128 × 256], rows by columns. -/
theorem rowsCols_whole :
    Cert.Lib.DotRowsCols.RowsCols Cert.ReferenceIdeal.dot_S50000x128_S128x256_S50000x256_1_0_0_1_n_n :=
  ⟨rfl, rfl, rfl, rfl, rfl, rfl⟩

/-- An entry of what one grid point stores: the row of its x-block against the column of W₁. -/
theorem block_product_apply (x0 : Vec Ideal S2000x128 .f32) (x1 : Vec Ideal S128x256 .f32) (j : S2000x256.Idx) :
    k0_pay1 (F := Ideal) x0 x1 j = ∑ q : Fin 128, x0 (ix2 (j 0) q) * x1 (ix2 q (j 1)) := by
  unfold k0_pay1
  exact rowsCols_block.matmul_zero_apply none (truncf .bf16 x0 bitsLt_bf16_f32) (truncf .bf16 x1 bitsLt_bf16_f32) j

/-- An entry of the reference's dense product. -/
theorem dense1_apply (x : S50000x128.Idx → Elt Ideal .f32) (w : S128x256.Idx → Elt Ideal .f32) (i : S50000x256.Idx) :
    Cert.Layers.dense1 (F := Ideal) x w i = ∑ q : Fin 128, x (ix2 (i 0) q) * w (ix2 q (i 1)) := by
  unfold Cert.Layers.dense1
  exact rowsCols_whole.dotGeneral_apply none x w i

/-! ## The blocks -/

/-- The zero offsets of a whole-buffer access. -/
theorem zero_offsets : (![0, 0] : Fin 2 → Nat) = fun _ => 0 := funext fun a => by fin_cases a <;> rfl

/-- The index maps over the grid: at point t the x-block and the output block are the t-th row blocks, and W₁'s block
    is the whole of W₁. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the TensorCore's buffer contents when the region is entered
variable (V : (c : Dev nD) → (b : Ref sig .tc) → Buf (Elt Ideal) ((c : Thread nD τ).loc b))

/-- Row r of the x-block at point t is row 2000 t + r of x. -/
theorem x_block_apply (c : Dev nD) (t : Fin cfg0.N) (y : S2000x128.Idx) (k : S50000x128.Idx)
    (hk0 : (k 0).val = 2000 * t.val + (y 0).val) (hk1 : (k 1).val = (y 1).val) :
    (iblk0 V c 0 t : Vec Ideal S2000x128 .f32) y = (V c main_arg0 : S50000x128.Idx → Elt Ideal .f32) k := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 128 + 1 * (y 1).val = (k 1).val; rw [e1, hk1]; omega

/-- The W₁-block at every point is W₁. -/
theorem w_block_apply (c : Dev nD) (t : Fin cfg0.N) (y : S128x256.Idx) (k : S128x256.Idx)
    (hk0 : (k 0).val = (y 0).val) (hk1 : (k 1).val = (y 1).val) :
    (iblk0 V c 1 t : Vec Ideal S128x256 .f32) y = (V c main_arg2 : S128x256.Idx → Elt Ideal .f32) k := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t 0 * 128 + 1 * (y 0).val = (k 0).val; rw [e0, hk0]; omega
  | ⟨1, _⟩ => show win0_1.index t 1 * 256 + 1 * (y 1).val = (k 1).val; rw [e1, hk1]; omega

/-- What point t writes back is the t-th row block of the dense product of the two arrays. -/
theorem flushed_eq (c : Dev nD) (t : Fin cfg0.N) :
    (dat0 (F := Ideal) V c).flushed 2 t
      = ((cfg0.win 2).blk t).view.read (Elt Ideal)
          (Cert.Layers.dense1 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x256) zero_offsets]
  obtain ⟨-, -, -, -, e0, e1⟩ := block_indices t
  funext j
  rw [View.read_apply]
  show k0_pay1 (F := Ideal) (iblk0 V c 0 t) (iblk0 V c 1 t) j
    = Cert.Layers.dense1 (F := Ideal) (V c main_arg0) (V c main_arg2) (((cfg0.win 2).blk t).view.emb j)
  refine (block_product_apply _ _ j).trans ?_
  refine Eq.trans ?_ (dense1_apply _ _ _).symm
  refine Finset.sum_congr rfl fun q _ => ?_
  refine congrArg₂ (· * ·) ?_ ?_
  · refine x_block_apply V c t _ _ ?_ ?_
    · show win0_2.index t 0 * 2000 + 1 * (j 0).val = 2000 * t.val + (j 0).val
      rw [e0]; omega
    · rfl
  · refine w_block_apply V c t _ _ ?_ ?_
    · rfl
    · show win0_2.index t 1 * 256 + 1 * (j 1).val = (j 1).val
      rw [e1]; omega

/-! ## The row blocks tile the array -/

/-- An entry of the output array is in point t's block iff each coordinate is in the block's range on its axis. -/
theorem mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v30).slice (win0_2.rect t)).set ↔ _
  rw [View.set_slice_whole, Rect.mem_set_unit]
  exact Iff.rfl

/-- Row r lies in the block of point r / 2000. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  obtain ⟨t, ht⟩ : ∃ t : Fin cfg0.N, t.val = (i 0).val / 2000 :=
    ⟨⟨(i 0).val / 2000, by show _ < grid0.N; rw [hN]; omega⟩, rfl⟩
  obtain ⟨-, -, -, -, e0, e1⟩ := block_indices t
  refine ⟨t, flush0_2 t, ?_⟩
  rw [mem_block]
  intro a
  match a with
  | ⟨0, _⟩ =>
    show win0_2.index t 0 * 2000 ≤ (i 0).val ∧ (i 0).val < win0_2.index t 0 * 2000 + 2000
    rw [e0, ht]; omega
  | ⟨1, _⟩ =>
    show win0_2.index t 1 * 256 ≤ (i 1).val ∧ (i 1).val < win0_2.index t 1 * 256 + 256
    rw [e1]; omega

/-- After the region, its output array is the dense product of its two input arrays. -/
theorem array_eq (c : Dev nD) :
    (dat0 (F := Ideal) V c).arrAt 2 cfg0.N = Cert.Layers.dense1 (F := Ideal) (V c main_arg0) (V c main_arg2) :=
  (dat0 (F := Ideal) V c).arrAt_eq_of_cover 2 (Cert.Layers.dense1 (F := Ideal) (V c main_arg0) (V c main_arg2))
    (fun t _ => flushed_eq V c t) covered

end Cert.KernelIdeal.Region0

end
-- ==== Proof.Region1.lean ====
/-
  The second pallas_call: max(a + b, 0) · mask, 2000 rows at a time.

  Each grid point loads rows [2000 t, 2000 t + 2000) of the aggregate a and of the mask, and the one-row bias window,
  and stores max(a + b, 0) · mask into the same rows of the output. Every operation acts entry by entry, the bias row
  is repeated down the rows exactly as the reference repeats the bias vector, and the 25 row blocks tile the 50000
  rows: the output array ends as the reference's hidden activation of the arrays the region found.
-/
import proofs.«124619_j9998683865528_1_alg».proof.Proof.Gen.KernelIdeal.Frame
import proofs.«124619_j9998683865528_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The two functions at an index -/

/-- The block computation at row `r`, column `q`: the aggregate entry plus the bias row's entry of that column,
    cut below at zero, times the mask entry. -/
theorem pay_apply (v0 : Vec Ideal S1x256 .f32) (v4 v9 : Vec Ideal S2000x256 .f32) (r : Fin 2000) (q : Fin 256) :
    k1_pay1 (F := Ideal) v0 v4 v9 (ix2 r q)
      = max (v4 (ix2 r q) + v0 (ix2 0 q)) (Ideal.ofBits .f32 0x00000000#32) * v9 (ix2 r q) := by
  unfold k1_pay1
  simp only [shapeCast_self]
  rw [mulf_apply, maximumf_apply, addf_apply, broadcast_apply]
  rw [broadcastTo_apply v0 broadcasts_S1x256_S2000x256 (ix2 r q) (ix2 0 q) (fun a => by
    match a with
    | ⟨0, _⟩ => rfl
    | ⟨1, _⟩ => rfl)]
  rfl

/-- The hidden activation at row `r`, column `q`: the same expression of the aggregate, the bias vector and the mask. -/
theorem act_apply (a mask : (⟨S50000x256, .f32⟩ : BufTy).Contents (Elt Ideal)) (b : (⟨S256, .f32⟩ : BufTy).Contents (Elt Ideal))
    (r : Fin 50000) (q : Fin 256) :
    Cert.Layers.act1 (F := Ideal) a b mask (ix2 r q)
      = max (a (ix2 r q) + b (ix1 q)) (Ideal.ofBits .f32 0x00000000#32) * mask (ix2 r q) := by
  unfold Cert.Layers.act1
  rw [mulf_apply, maximumf_apply, addf_apply]
  rw [broadcastInDim_apply _ _ _ (ix2 r q) (ix2 0 q) (fun a => by
    match a with
    | ⟨0, _⟩ => rfl
    | ⟨1, _⟩ => rfl)]
  rw [broadcastInDim_apply _ _ b (ix2 0 q) (ix1 q) (fun a => by
    match a with
    | ⟨0, _⟩ => rfl)]
  rw [broadcastInDim_apply _ _ _ (ix2 r q) ix0 (fun a => a.elim0)]
  rfl

/-- The bias vector laid out as a one-row array, read at column `q` of its row, is the vector's entry `q`. -/
theorem bias_row_apply (b : (⟨S256, .f32⟩ : BufTy).Contents (Elt Ideal)) (p : Fin 1) (q : Fin 256) :
    shapeCast S1x256 b shapeCasts_S256_S1x256 (ix2 p q) = b (ix1 q) :=
  (shapeCast_addUnit_apply ![256] b shapeCasts_S256_S1x256 (ix2 p q)).trans
    (congrArg b (funext fun a => by match a with | ⟨0, _⟩ => rfl))

/-- One block against the whole array. If the aggregate block and the mask block are the aggregate and the mask read
    along one map `e` of block indices to array indices that keeps the column, and the bias block's row is the bias
    vector, then the block computation is the hidden activation read along `e`. -/
theorem block_eq (A M : (⟨S50000x256, .f32⟩ : BufTy).Contents (Elt Ideal)) (b : (⟨S256, .f32⟩ : BufTy).Contents (Elt Ideal))
    (x0 x2 : Vec Ideal S2000x256 .f32) (x1 : Vec Ideal S1x256 .f32) (e : S2000x256.Idx → S50000x256.Idx)
    (hcol : ∀ j, (e j 1).val = (j 1).val)
    (h0 : ∀ j, x0 j = A (e j)) (h2 : ∀ j, x2 j = M (e j)) (h1 : ∀ q : Fin 256, x1 (ix2 0 q) = b (ix1 q))
    (j : S2000x256.Idx) :
    k1_pay1 (F := Ideal) x1 x0 x2 j = Cert.Layers.act1 (F := Ideal) A b M (e j) := by
  obtain ⟨r, q, rfl⟩ : ∃ (r : Fin 2000) (q : Fin 256), j = ix2 r q := ⟨j 0, j 1, eq_ix2 j⟩
  obtain ⟨r', q', he⟩ : ∃ (r' : Fin 50000) (q' : Fin 256), e (ix2 r q) = ix2 r' q' :=
    ⟨e (ix2 r q) 0, e (ix2 r q) 1, eq_ix2 _⟩
  have hq : q' = q := Fin.ext (by have h := hcol (ix2 r q); rw [he] at h; exact h)
  subst hq
  rw [pay_apply, h0, h2, h1, he, act_apply]

/-! ## The 25 row blocks -/

theorem zero_offsets : (![0, 0] : Fin 2 → Nat) = fun _ => 0 := funext fun a => by fin_cases a <;> rfl

/-- The windows' block indices, decided over the grid: at point `t` the aggregate, mask and output windows are all at
    block (t, 0), and the bias window at block (0, 0). -/
theorem block_indices : ∀ t : Fin cfg1.N,
    win1_0.index t (0 : Fin 2) = win1_3.index t (0 : Fin 2) ∧ win1_0.index t (1 : Fin 2) = win1_3.index t (1 : Fin 2)
    ∧ win1_2.index t (0 : Fin 2) = win1_3.index t (0 : Fin 2) ∧ win1_2.index t (1 : Fin 2) = win1_3.index t (1 : Fin 2)
    ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

/-- What point `t` writes back is block `t` of the hidden activation of the arrays the region found. -/
theorem flushed_eq (c : Dev nD) (b : (⟨S256, .f32⟩ : BufTy).Contents (Elt Ideal))
    (hb : V c main_v44 = shapeCast _ b shapeCasts_S256_S1x256) (t : Fin cfg1.N) :
    (dat1 (F := Ideal) V c).flushed 3 t
      = ((cfg1.win 3).blk t).view.read (Elt Ideal) (Cert.Layers.act1 (F := Ideal) (V c main_v43) b (V c main_arg6)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S1x256) zero_offsets]
  obtain ⟨e00, e01, e20, e21, e10, e11, e30, e31⟩ := block_indices t
  funext j
  refine block_eq (V c main_v43) (V c main_arg6) b (iblk1 V c 0 t) (iblk1 V c 2 t) (iblk1 V c 1 t)
    (fun y => ((cfg1.win 3).blk t).view.emb y) ?_ ?_ ?_ ?_ j
  · intro y
    show win1_3.index t (1 : Fin 2) * 256 + 1 * (y 1).val = (y 1).val
    omega
  · intro y
    show V c main_v43 (((cfg1.win 0).blk t).view.emb y) = V c main_v43 (((cfg1.win 3).blk t).view.emb y)
    refine congrArg (V c main_v43) (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 256 + 1 * (y 1).val = win1_3.index t (1 : Fin 2) * 256 + 1 * (y 1).val; omega
  · intro y
    show V c main_arg6 (((cfg1.win 2).blk t).view.emb y) = V c main_arg6 (((cfg1.win 3).blk t).view.emb y)
    refine congrArg (V c main_arg6) (funext fun a => Fin.ext ?_)
    match a with
    | ⟨0, _⟩ => show win1_2.index t (0 : Fin 2) * 2000 + 1 * (y 0).val = win1_3.index t (0 : Fin 2) * 2000 + 1 * (y 0).val; omega
    | ⟨1, _⟩ => show win1_2.index t (1 : Fin 2) * 256 + 1 * (y 1).val = win1_3.index t (1 : Fin 2) * 256 + 1 * (y 1).val; omega
  · intro q
    show V c main_v44 (((cfg1.win 1).blk t).view.emb (ix2 0 q)) = b (ix1 q)
    rw [hb]
    have hi : ((cfg1.win 1).blk t).view.emb (ix2 (0 : Fin 1) q) = ix2 (0 : Fin 1) q := by
      funext a; apply Fin.ext
      match a with
      | ⟨0, _⟩ => show win1_1.index t (0 : Fin 2) * 1 + 1 * 0 = 0; omega
      | ⟨1, _⟩ => show win1_1.index t (1 : Fin 2) * 256 + 1 * q.val = q.val; omega
    rw [hi, bias_row_apply]

/-- An index of the output array is in point `t`'s block when, on each axis, it is in the block's range. -/
theorem mem_block (t : Fin cfg1.N) (i : S50000x256.Idx) :
    i ∈ ((cfg1.win 3).blk t).view.set
      ↔ ∀ a : Fin 2, win1_3.index t a * S2000x256.size a ≤ (i a).val
          ∧ (i a).val < win1_3.index t a * S2000x256.size a + S2000x256.size a := by
  show i ∈ ((View.whole main_v45).slice (win1_3.rect t)).set ↔ _
  rw [View.set_slice_whole, Rect.mem_set_unit]
  exact Iff.rfl

/-- The 25 blocks of 2000 rows tile the 50000 rows: row `n` is in the block of point `n / 2000`, which is written back. -/
theorem covered (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := by decide
  obtain ⟨t, ht⟩ : ∃ t : Fin cfg1.N, t.val = (i 0).val / 2000 := ⟨⟨(i 0).val / 2000, by rw [hN]; omega⟩, rfl⟩
  obtain ⟨-, -, -, -, -, -, e30, e31⟩ := block_indices t
  refine ⟨t, flush1_3 t, ?_⟩
  rw [mem_block]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 256 ≤ (i 1).val ∧ (i 1).val < win1_3.index t (1 : Fin 2) * 256 + 256
    omega

/-- After the region, its output array is the hidden activation of its input arrays, when the one-row bias window
    holds the bias vector laid out as a row. -/
theorem array_eq (c : Dev nD) (b : (⟨S256, .f32⟩ : BufTy).Contents (Elt Ideal))
    (hb : V c main_v44 = shapeCast _ b shapeCasts_S256_S1x256) :
    (dat1 (F := Ideal) V c).arrAt 3 cfg1.N = Cert.Layers.act1 (F := Ideal) (V c main_v43) b (V c main_arg6) := by
  exact (dat1 (F := Ideal) V c).arrAt_eq_of_cover 3 (Cert.Layers.act1 (F := Ideal) (V c main_v43) b (V c main_arg6))
    (fun t _ => flushed_eq V c b hb t) covered

end Cert.KernelIdeal.Region1

end
-- ==== Proof.Region2.lean ====
/-
  The third pallas_call: h · W₂ computed 2000 rows at a time.

  Each of the 25 grid points loads rows [2000 t, 2000 t + 2000) of h and the whole of W₂ and stores their product into
  the same rows of the output. The contraction runs over all 256 columns inside one point, so an entry of a block is
  the entry of the whole product  ∑ q < 256, h (r, q) · W₂ (q, v), and the 25 row blocks tile the 50000 rows: the
  output array ends as the reference's dense product of the two arrays the region found.
-/
import proofs.«124619_j9998683865528_1_alg».proof.Proof.Gen.KernelIdeal.Frame
import proofs.«124619_j9998683865528_1_alg».proof.Proof.Layers
import proofs.«124619_j9998683865528_1_alg».proof.Proof.LibDotRowsCols
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## The two products, entry by entry -/

/-- The block product's dimension numbers: [2000 × 256] · [256 × 64], rows by columns. -/
theorem rowsCols_block : Cert.Lib.DotRowsCols.RowsCols dot_S2000x256_S256x64_S2000x64_1_0_0_1_n_n :=
  ⟨rfl, rfl, rfl, rfl, rfl, rfl⟩

/-- The whole product's dimension numbers: [50000 × 256] · [256 × 64], rows by columns. -/
theorem rowsCols_whole :
    Cert.Lib.DotRowsCols.RowsCols Cert.ReferenceIdeal.dot_S50000x256_S256x64_S50000x64_1_0_0_1_n_n :=
  ⟨rfl, rfl, rfl, rfl, rfl, rfl⟩

/-- An entry of what one grid point stores: the row of its h-block against the column of W₂ (the reshape of the
    block to its own shape changes nothing, nor does the change of float format on the ideal values). -/
theorem block_product_apply (x0 : Vec Ideal S2000x256 .f32) (x1 : Vec Ideal S256x64 .f32) (j : S2000x64.Idx) :
    k2_pay1 (F := Ideal) x0 x1 j = ∑ q : Fin 256, x0 (ix2 (j 0) q) * x1 (ix2 q (j 1)) := by
  unfold k2_pay1
  refine (rowsCols_block.matmul_zero_apply none
    (truncf .bf16 (shapeCast S2000x256 x0 shapeCasts_S2000x256_S2000x256) bitsLt_bf16_f32)
    (truncf .bf16 x1 bitsLt_bf16_f32) j).trans ?_
  refine Finset.sum_congr rfl fun q _ => ?_
  show shapeCast S2000x256 x0 shapeCasts_S2000x256_S2000x256 (ix2 (j 0) q) * x1 (ix2 q (j 1)) = _
  rw [shapeCast_self]

/-- An entry of the reference's dense product. -/
theorem dense2_apply (x : S50000x256.Idx → Elt Ideal .f32) (w : S256x64.Idx → Elt Ideal .f32) (i : S50000x64.Idx) :
    Cert.Layers.dense2 (F := Ideal) x w i = ∑ q : Fin 256, x (ix2 (i 0) q) * w (ix2 q (i 1)) := by
  unfold Cert.Layers.dense2
  exact rowsCols_whole.dotGeneral_apply none x w i

/-! ## The blocks -/

/-- The zero offsets of a whole-buffer access. -/
theorem zero_offsets : (![0, 0] : Fin 2 → Nat) = fun _ => 0 := funext fun a => by fin_cases a <;> rfl

/-- The index maps over the grid: at point t the h-block and the output block are the t-th row blocks, and W₂'s block
    is the whole of W₂. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- the TensorCore's buffer contents when the region is entered
variable (V : (c : Dev nD) → (b : Ref sig .tc) → Buf (Elt Ideal) ((c : Thread nD τ).loc b))

/-- Row r of the h-block at point t is row 2000 t + r of h. -/
theorem h_block_apply (c : Dev nD) (t : Fin cfg2.N) (y : S2000x256.Idx) (k : S50000x256.Idx)
    (hk0 : (k 0).val = 2000 * t.val + (y 0).val) (hk1 : (k 1).val = (y 1).val) :
    (iblk2 V c 0 t : Vec Ideal S2000x256 .f32) y = (V c main_v45 : S50000x256.Idx → Elt Ideal .f32) k := by
  obtain ⟨e0, e1, -⟩ := block_indices t
  unfold iblk2
  rw [View.read_apply]
  show V c main_v45 _ = V c main_v45 _
  congr 1
  funext a
  apply Fin.ext
  match a with
  | ⟨0, _⟩ => show win2_0.index t 0 * 2000 + 1 * (y 0).val = (k 0).val; rw [e0, hk0]; omega
  | ⟨1, _⟩ => show win2_0.index t 1 * 256 + 1 * (y 1).val = (k 1).val; rw [e1, hk1]; omega

/-- The W₂-block at every point is W₂. -/
theorem w_block_apply (c : Dev nD) (t : Fin cfg2.N) (y : S256x64.Idx) (k : S256x64.Idx)
    (hk0 : (k 0).val = (y 0).val) (hk1 : (k 1).val = (y 1).val) :
    (iblk2 V c 1 t : Vec Ideal S256x64 .f32) y = (V c main_arg4 : S256x64.Idx → Elt Ideal .f32) k := by
  obtain ⟨-, -, e0, e1, -⟩ := block_indices t
  unfold iblk2
  rw [View.read_apply]
  show V c main_arg4 _ = V c main_arg4 _
  congr 1
  funext a
  apply Fin.ext
  match a with
  | ⟨0, _⟩ => show win2_1.index t 0 * 256 + 1 * (y 0).val = (k 0).val; rw [e0, hk0]; omega
  | ⟨1, _⟩ => show win2_1.index t 1 * 64 + 1 * (y 1).val = (k 1).val; rw [e1, hk1]; omega

/-- What point t writes back is the t-th row block of the dense product of the two arrays. -/
theorem flushed_eq (c : Dev nD) (t : Fin cfg2.N) :
    (dat2 (F := Ideal) V c).flushed 2 t
      = ((cfg2.win 2).blk t).view.read (Elt Ideal)
          (Cert.Layers.dense2 (F := Ideal) (V c main_v45) (V c main_arg4)) := by
  show (cfg2.win 2).cut (grid2.coords t) ((dat2 V c).after 2 t) = _
  rw [after2_2]
  unfold out2_2
  rw [View.canon_unit_zero zero_offsets]
  simp only [View.ld_unit_zero (S := S2000x256) zero_offsets, View.ld_unit_zero (S := S256x64) zero_offsets]
  obtain ⟨-, -, -, -, e0, e1⟩ := block_indices t
  funext j
  rw [View.read_apply]
  show k2_pay1 (F := Ideal) (iblk2 V c 0 t) (iblk2 V c 1 t) j
    = Cert.Layers.dense2 (F := Ideal) (V c main_v45) (V c main_arg4) (((cfg2.win 2).blk t).view.emb j)
  refine (block_product_apply _ _ j).trans ?_
  refine Eq.trans ?_ (dense2_apply _ _ _).symm
  refine Finset.sum_congr rfl fun q _ => ?_
  refine congrArg₂ (· * ·) ?_ ?_
  · refine h_block_apply V c t _ _ ?_ ?_
    · show win2_2.index t 0 * 2000 + 1 * (j 0).val = 2000 * t.val + (j 0).val
      rw [e0]; omega
    · rfl
  · refine w_block_apply V c t _ _ ?_ ?_
    · rfl
    · show win2_2.index t 1 * 64 + 1 * (j 1).val = (j 1).val
      rw [e1]; omega

/-! ## The row blocks tile the array -/

/-- An entry of the output array is in point t's block iff each coordinate is in the block's range on its axis. -/
theorem mem_block (t : Fin cfg2.N) (i : S50000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v46).slice (win2_2.rect t)).set ↔ _
  rw [View.set_slice_whole, Rect.mem_set_unit]
  exact Iff.rfl

/-- Row r lies in the block of point r / 2000. -/
theorem covered (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 25 := N_2
  obtain ⟨t, ht⟩ : ∃ t : Fin cfg2.N, t.val = (i 0).val / 2000 :=
    ⟨⟨(i 0).val / 2000, by show _ < grid2.N; rw [hN]; omega⟩, rfl⟩
  obtain ⟨-, -, -, -, e0, e1⟩ := block_indices t
  refine ⟨t, flush2_2 t, ?_⟩
  rw [mem_block]
  intro a
  match a with
  | ⟨0, _⟩ =>
    show win2_2.index t 0 * 2000 ≤ (i 0).val ∧ (i 0).val < win2_2.index t 0 * 2000 + 2000
    rw [e0, ht]; omega
  | ⟨1, _⟩ =>
    show win2_2.index t 1 * 64 ≤ (i 1).val ∧ (i 1).val < win2_2.index t 1 * 64 + 64
    rw [e1]; omega

/-- After the region, its output array is the dense product of its two input arrays. -/
theorem array_eq (c : Dev nD) :
    (dat2 (F := Ideal) V c).arrAt 2 cfg2.N = Cert.Layers.dense2 (F := Ideal) (V c main_v45) (V c main_arg4) :=
  (dat2 (F := Ideal) V c).arrAt_eq_of_cover 2 (Cert.Layers.dense2 (F := Ideal) (V c main_v45) (V c main_arg4))
    (fun t _ => flushed_eq V c t) covered

end Cert.KernelIdeal.Region2

end
-- ==== Proof.Region3.lean ====
/-
  The fourth pallas_call: the row-wise log-softmax of z + b, 2000 rows at a time.

  Each grid point loads rows [2000 t, 2000 t + 2000) of the aggregate z and the one-row bias window, and for each of
  its rows computes  s = z + b − max over the row,  then  s − log ∑ exp s  over the row's 64 entries. A row's maximum
  and sum run over the row's own 64 columns, all inside the block, so an entry of a block is the entry of the
  whole-array log-softmax; the reference's extra max with −∞ changes nothing; and the 25 row blocks tile the 50000
  rows: the output array ends as the reference's log-softmax of the arrays the region found.
-/
import proofs.«124619_j9998683865528_1_alg».proof.Proof.Gen.KernelIdeal.Frame
import proofs.«124619_j9998683865528_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## A row's log-softmax -/

/-- The largest entry of a row, taken from the value of the word `0xFF800000` (which is −∞). -/
def rowMax {n : ℕ} (v : Fin n → EReal) : EReal :=
  (Finset.univ : Finset (Fin n)).fold max (Ideal.ofBits .f32 0xFF800000#32) v

/-- Entry `q` of the log-softmax of a row: with s = v − max v, it is s q − log ∑ exp s. -/
def rowLsm {n : ℕ} (v : Fin n → EReal) (q : Fin n) : EReal :=
  (v q - rowMax v) - Ideal.log (∑ k : Fin n, Ideal.exp (v k - rowMax v))

/-! ## Reductions along the rows of a matrix -/

section Rows

variable {a b : ℕ}

/-- Over row `r`, the index with `k` put back on the reduced axis 1 is `(r, k)`. -/
theorem lift_row (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A maximum-reduction over axis 1 at row `r`: the fold of `max` over the row's entries. -/
theorem multiReduction_max_row {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => (Finset.univ : Finset (Fin b)).fold max (Ideal.ofBits φ acc) f) ?_
  funext k
  exact congrArg src (lift_row h r k)

/-- A sum-reduction over axis 1 at row `r`: the sum of the row's entries. -/
theorem multiReduction_add_row {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  exact congrArg src (lift_row h r k)

end Rows

/-! ## The keepdims column forms -/

section Columns

variable {α : Type} {a b : ℕ}

/-- A vector of `a` entries laid out as an `a × 1` column reads, at `(r, 0)`, entry `r`. -/
theorem shapeCast_column_apply (v : (⟨1, ![a]⟩ : Shape).Idx → α) (h : (⟨1, ![a]⟩ : Shape).ShapeCasts ⟨2, ![a, 1]⟩) (r : Fin a) (z : Fin 1) :
    shapeCast ⟨2, ![a, 1]⟩ v h (ix2 r z) = v (ix1 r) := by
  refine shapeCast_apply v h (ix2 r z) (ix1 r) ?_
  rw [Shape.rowMajor_val_one, Shape.rowMajor_val_two]
  show r.val = r.val * 1 + z.val
  have := z.isLt
  omega

/-- An `a × 1` column repeated along the rows reads, at `(r, q)`, the column's entry `r`. -/
theorem broadcastTo_column_apply (v : (⟨2, ![a, 1]⟩ : Shape).Idx → α) (h : (⟨2, ![a, 1]⟩ : Shape).Broadcasts ⟨2, ![a, b]⟩) (r : Fin a) (q : Fin b) :
    broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

/-- A `1 × b` row repeated down the rows reads, at `(r, q)`, the row's entry `q`. -/
theorem broadcastTo_row_apply (v : (⟨2, ![1, b]⟩ : Shape).Idx → α) (h : (⟨2, ![1, b]⟩ : Shape).Broadcasts ⟨2, ![a, b]⟩) (r : Fin a) (q : Fin b) :
    broadcastTo ⟨2, ![a, b]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if b = 1 then 0 else q.val
    split
    · have := q.isLt; omega
    · rfl

end Columns

/-! ## The kernel's payload at an index -/

/-- The elementwise tail of a row-wise log-softmax over a block `lg`, as the payload spells it — the row maximum
    by a maximum-reduction from −∞'s word, laid out as a column and repeated along the rows; the row sum of the
    exponentials likewise — read at `(r, q)`: the log-softmax of row `r` at entry `q`. -/
theorem lsmTail_apply (lg : FVec Ideal S2000x64 .f32) (hred : S2000x64.Reduces [1] S2000) (hφ : FKind.Formats .f32)
    (hmax : (0xFF800000#32 : BitVec 32) = FKind.maximumf.neutral .f32 hφ)
    (hadd : (0x00000000#32 : BitVec 32) = FKind.add.neutral .f32 hφ)
    (hc : S2000.ShapeCasts S2000x1) (hb : S2000x1.Broadcasts S2000x64) (r : Fin 2000) (q : Fin 64) :
    subf
      (subf lg (broadcastTo S2000x64 (shapeCast S2000x1 (multiReduction .maximumf [1] S2000 lg 0xFF800000#32 hred hφ hmax) hc) hb))
      (broadcastTo S2000x64
        (log (shapeCast S2000x1
          (multiReduction .add [1] S2000
            (exp (subf lg (broadcastTo S2000x64 (shapeCast S2000x1 (multiReduction .maximumf [1] S2000 lg 0xFF800000#32 hred hφ hmax) hc) hb)))
            0x00000000#32 hred hφ hadd) hc)) hb)
      (ix2 r q)
      = rowLsm (fun k : Fin 64 => lg (ix2 r k)) q := by
  -- the row maximum, repeated along the row
  have hmx : ∀ k : Fin 64,
      broadcastTo S2000x64 (shapeCast S2000x1 (multiReduction .maximumf [1] S2000 lg 0xFF800000#32 hred hφ hmax) hc) hb (ix2 r k)
        = rowMax (fun k : Fin 64 => lg (ix2 r k)) := fun k =>
    (broadcastTo_column_apply _ hb r k).trans
      ((shapeCast_column_apply _ hc r 0).trans (multiReduction_max_row lg _ hred hφ hmax r))
  -- the shifted row
  have hs : ∀ k : Fin 64,
      subf lg (broadcastTo S2000x64 (shapeCast S2000x1 (multiReduction .maximumf [1] S2000 lg 0xFF800000#32 hred hφ hmax) hc) hb) (ix2 r k)
        = lg (ix2 r k) - rowMax (fun k : Fin 64 => lg (ix2 r k)) := fun k =>
    congrArg (fun m => lg (ix2 r k) - m) (hmx k)
  rw [subf_apply]
  unfold rowLsm
  refine congrArg₂ (fun x y : EReal => x - y) (hs q) ?_
  refine (broadcastTo_column_apply _ hb r q).trans ?_
  show Ideal.log (shapeCast S2000x1 _ hc (ix2 r (0 : Fin 1))) = _
  refine congrArg Ideal.log ?_
  refine (shapeCast_column_apply _ hc r 0).trans ?_
  refine (multiReduction_add_row _ _ hred hφ hadd r).trans ?_
  refine Finset.sum_congr rfl fun k _ => ?_
  exact congrArg Ideal.exp (hs k)

/-- The block plus the bias row at `(r, k)`. -/
theorem blockLogits_apply (x1 : FVec Ideal S1x64 .f32) (x0 : FVec Ideal S2000x64 .f32) (h1 : S1x64.ShapeCasts S1x64)
    (h2 : S2000x64.ShapeCasts S2000x64) (hb : S1x64.Broadcasts S2000x64) (r : Fin 2000) (k : Fin 64) :
    addf (F := Ideal) (shapeCast S2000x64 x0 h2) (broadcastTo S2000x64 (shapeCast S1x64 (shapeCast S1x64 x1 h1) h1) hb) (ix2 r k)
      = x0 (ix2 r k) + x1 (ix2 (0 : Fin 1) k) := by
  rw [addf_apply, shapeCast_self, shapeCast_self, shapeCast_self]
  exact congrArg (fun m => x0 (ix2 r k) + m) (broadcastTo_row_apply x1 hb r k)

/-- The payload at `(r, q)`: the log-softmax of row `r` of the block plus the bias row, at entry `q`. -/
theorem pay_apply (x1 : Vec Ideal S1x64 .f32) (x0 : Vec Ideal S2000x64 .f32) (r : Fin 2000) (q : Fin 64) :
    k3_pay1 (F := Ideal) x1 x0 (ix2 r q) = rowLsm (fun k : Fin 64 => x0 (ix2 r k) + x1 (ix2 (0 : Fin 1) k)) q := by
  unfold k3_pay1
  dsimp only
  refine (lsmTail_apply _ _ _ _ _ _ _ r q).trans ?_
  refine congrArg (fun v : Fin 64 → EReal => rowLsm v q) ?_
  funext k
  exact blockLogits_apply x1 x0 _ _ _ r k

/-! ## The reference's layers at an index -/

section Reference

variable {a b : ℕ} {φ : FTy}

/-- The host's maximum-reduction over axis 1 at row `r`: the fold of `max` from the initial value over the row. -/
theorem hostReduce_max_row (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  show (Finset.univ : Finset (Fin b)).fold max (init (Shape.Idx.first hu)) (x ∘ h.lift (ix1 r)) = _
  refine congrArg (fun f => (Finset.univ : Finset (Fin b)).fold max (init (Shape.Idx.first hu)) f) ?_
  funext k
  exact congrArg x (lift_row h r k)

/-- The host's sum-reduction over axis 1 at row `r`: the initial value plus the sum of the row. -/
theorem hostReduceAdd_row (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd x init h' hu (ix1 r) = init (Shape.Idx.first hu) + ∑ k : Fin b, x (ix2 r k) := by
  show Ideal.hostReduceAdd h' x (init (Shape.Idx.first hu)) (ix1 r) = _
  refine (Ideal.hostReduceAdd_single h' h x _ (ix1 r)).trans ?_
  refine congrArg (fun m => init (Shape.Idx.first hu) + m) (Finset.sum_congr rfl fun k _ => ?_)
  exact congrArg x (lift_row h r k)

/-- The host's exponential and logarithm at an index are the ideal functions of the entry. -/
theorem hostExp_apply {s : Shape} (x : FVec Ideal s φ) (i : s.Idx) : Host.exp x i = Ideal.exp (x i) := rfl
theorem hostLog_apply {s : Shape} (x : FVec Ideal s φ) (i : s.Idx) : Host.log x i = Ideal.log (x i) := rfl

/-- −∞'s word is below every row maximum taken from it. -/
theorem le_rowMax {n : ℕ} (v : Fin n → EReal) : Ideal.ofBits .f32 0xFF800000#32 ≤ rowMax v :=
  (Finset.le_fold_max _).2 (Or.inl le_rfl)

/-- The logits at `(i, k)`. -/
theorem logits_apply (z : FVec Ideal ⟨2, ![50000, 64]⟩ .f32) (bias : FVec Ideal ⟨1, ![64]⟩ .f32) (i : Fin 50000) (k : Fin 64) :
    Cert.Layers.logits (F := Ideal) z bias (ix2 i k) = z (ix2 i k) + bias (ix1 k) := by
  unfold Cert.Layers.logits
  rw [addf_apply]
  refine congrArg (fun m => z (ix2 i k) + m) ?_
  refine (broadcastInDim_apply _ _ _ (ix2 i k) (ix2 (0 : Fin 1) k) fun ax => ?_).trans ?_
  · match ax with
    | ⟨0, _⟩ => rfl
    | ⟨1, _⟩ => rfl
  · refine broadcastInDim_apply _ _ _ (ix2 (0 : Fin 1) k) (ix1 k) fun ax => ?_
    match ax with
    | ⟨0, _⟩ => rfl

/-- A column repeated along the rows, at `(i, k)`. -/
theorem alongRows_apply (v : FVec Ideal ⟨2, ![50000, 1]⟩ .f32) (i : Fin 50000) (k : Fin 64) :
    Cert.Layers.alongRows (F := Ideal) v (ix2 i k) = v (ix2 i (0 : Fin 1)) := by
  unfold Cert.Layers.alongRows
  refine broadcastInDim_apply _ _ _ (ix2 i k) (ix2 i (0 : Fin 1)) fun ax => ?_
  match ax with
  | ⟨0, _⟩ => rfl
  | ⟨1, _⟩ => rfl

/-- A value per row as a column, at `(i, 0)`. -/
theorem asColumn_apply (v : FVec Ideal ⟨1, ![50000]⟩ .f32) (i : Fin 50000) (z : Fin 1) :
    Cert.Layers.asColumn (F := Ideal) v (ix2 i z) = v (ix1 i) := by
  unfold Cert.Layers.asColumn
  refine broadcastInDim_apply _ _ _ (ix2 i z) (ix1 i) fun ax => ?_
  match ax with
  | ⟨0, _⟩ => rfl

/-- The shifted logits at `(i, k)`: the row's entry minus the row's maximum. -/
theorem shifted_apply (z : FVec Ideal ⟨2, ![50000, 64]⟩ .f32) (bias : FVec Ideal ⟨1, ![64]⟩ .f32) (i : Fin 50000) (k : Fin 64) :
    Cert.Layers.shifted (F := Ideal) z bias (ix2 i k)
      = (z (ix2 i k) + bias (ix1 k)) - rowMax (fun k' : Fin 64 => z (ix2 i k') + bias (ix1 k')) := by
  unfold Cert.Layers.shifted
  rw [subf_apply, logits_apply]
  refine congrArg (fun m => (z (ix2 i k) + bias (ix1 k)) - m) ?_
  refine (alongRows_apply _ i k).trans ((asColumn_apply _ i 0).trans ?_)
  rw [maximumf_apply]
  have hred : Host.reduce (FloatOps.maximumf (F := Ideal) (φ := .f32)) (Cert.Layers.logits (F := Ideal) z bias)
      (constant (F := Ideal) Cert.ReferenceIdeal.S_ .f32 0xFF800000#32) Cert.ReferenceIdeal.Facts₀.reducesTo_S50000x64_S50000_d1
      Cert.ReferenceIdeal.Facts₀.h_S_ (ix1 i)
        = rowMax (fun k' : Fin 64 => z (ix2 i k') + bias (ix1 k')) := by
    refine (hostReduce_max_row _ _ _ (by decide) _ i).trans ?_
    unfold rowMax
    refine congrArg (fun f => (Finset.univ : Finset (Fin 64)).fold max (Ideal.ofBits .f32 0xFF800000#32) f) ?_
    funext k'
    exact logits_apply z bias i k'
  rw [hred]
  exact max_eq_right (le_rowMax _)

/-- The reference's log-softmax at `(i, q)`: the log-softmax of row `i` of z + b at entry `q`. -/
theorem lsm_apply (z : FVec Ideal ⟨2, ![50000, 64]⟩ .f32) (bias : FVec Ideal ⟨1, ![64]⟩ .f32) (i : Fin 50000) (q : Fin 64) :
    Cert.Layers.lsm (F := Ideal) z bias (ix2 i q) = rowLsm (fun k : Fin 64 => z (ix2 i k) + bias (ix1 k)) q := by
  unfold Cert.Layers.lsm rowLsm
  rw [subf_apply, shifted_apply]
  refine congrArg (fun m => ((z (ix2 i q) + bias (ix1 q)) - rowMax (fun k' : Fin 64 => z (ix2 i k') + bias (ix1 k'))) - m) ?_
  refine (alongRows_apply _ i q).trans ?_
  refine (hostLog_apply _ _).trans ?_
  refine congrArg Ideal.log ((asColumn_apply _ i 0).trans ?_)
  refine (hostReduceAdd_row _ _ _ (by decide) _ i).trans ?_
  rw [constant_apply, Ideal.ofBits_zero_f32, zero_add]
  refine Finset.sum_congr rfl fun k _ => ?_
  exact congrArg Ideal.exp (shifted_apply z bias i k)

end Reference

/-! ## From the blocks to the array -/

/-- A block's entry is the array's: when row `r` of the block is row `n` of the array `z` and the one-row window is
    the bias laid out as a row, the payload at `(r, q)` is the whole-array log-softmax at `(n, q)` (a row's maximum
    and sum run over the row's own 64 entries, all of them in the block). -/
theorem entry_eq (x1 : Vec Ideal S1x64 .f32) (x0 : Vec Ideal S2000x64 .f32) (z : FVec Ideal ⟨2, ![50000, 64]⟩ .f32)
    (bias : FVec Ideal ⟨1, ![64]⟩ .f32) (j : S2000x64.Idx) (i : S50000x64.Idx) (r : Fin 2000) (q : Fin 64) (n : Fin 50000)
    (hj : j = ix2 r q) (hi : i = ix2 n q)
    (h0 : ∀ k : Fin 64, x0 (ix2 r k) = z (ix2 n k)) (h1 : ∀ k : Fin 64, x1 (ix2 (0 : Fin 1) k) = bias (ix1 k)) :
    k3_pay1 (F := Ideal) x1 x0 j = Cert.Layers.lsm (F := Ideal) z bias i := by
  subst hj hi
  rw [pay_apply, lsm_apply]
  refine congrArg (fun v : Fin 64 → EReal => rowLsm v q) ?_
  funext k
  rw [h0, h1]

/-- The block offsets (0, 0) are zero on every axis. -/
theorem zero_offsets : (![0, 0] : Fin 2 → Nat) = fun _ => 0 := funext fun a => by fin_cases a <;> rfl

/-- The printed index maps over the grid: the aggregate's and the output's windows sit at block row `t`, block column
    0; the bias window at block (0, 0). -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of the aggregate's block at point `t` is row `2000 t + r` of the aggregate. -/
theorem iblk0_apply (c : Dev nD) (t : Fin cfg3.N) (r : Fin 2000) (k : Fin 64) (n : Fin 50000) (hn : n.val = t.val * 2000 + r.val) :
    (iblk3 (F := Ideal) V c 0 t : Vec Ideal S2000x64 .f32) (ix2 r k) = (V c main_v59 : S50000x64.Idx → EReal) (ix2 n k) := by
  obtain ⟨e0, e1, -⟩ := block_indices t
  unfold iblk3
  rw [View.read_apply]
  show V c main_v59 _ = V c main_v59 _
  congr 1
  funext a
  apply Fin.ext
  match a with
  | ⟨0, _⟩ => show win3_0.index t (0 : Fin 2) * 2000 + 1 * r.val = n.val; rw [e0, hn]; omega
  | ⟨1, _⟩ => show win3_0.index t (1 : Fin 2) * 64 + 1 * k.val = k.val; rw [e1]; omega

/-- The bias window's block at any point is the bias vector laid out as a row. -/
theorem iblk1_apply (c : Dev nD) (bias : (⟨S64, .f32⟩ : BufTy).Contents (Elt Ideal))
    (hb : V c main_v60 = shapeCast _ bias shapeCasts_S64_S1x64) (t : Fin cfg3.N) (k : Fin 64) :
    (iblk3 (F := Ideal) V c 1 t : Vec Ideal S1x64 .f32) (ix2 (0 : Fin 1) k) = bias (ix1 k) := by
  obtain ⟨-, -, e0, e1, -⟩ := block_indices t
  have hemb : (((cfg3.win 1).blk t).view.emb (ix2 (0 : Fin 1) k) : S1x64.Idx) = ix2 (0 : Fin 1) k := by
    funext a
    apply Fin.ext
    match a with
    | ⟨0, _⟩ => show win3_1.index t (0 : Fin 2) * 1 + 1 * 0 = 0; rw [e0]
    | ⟨1, _⟩ => show win3_1.index t (1 : Fin 2) * 64 + 1 * k.val = k.val; rw [e1]; omega
  unfold iblk3
  rw [View.read_apply]
  show V c main_v60 _ = _
  rw [hemb, hb]
  refine shapeCast_apply bias _ _ (ix1 k) ?_
  rw [Shape.rowMajor_val_one, Shape.rowMajor_val_two]
  show k.val = 0 * 64 + k.val
  omega

/-- WHAT POINT `t` WRITES BACK is block `t` of the whole-array log-softmax of the arrays the region found. -/
theorem written_back_eq (c : Dev nD) (bias : (⟨S64, .f32⟩ : BufTy).Contents (Elt Ideal))
    (hb : V c main_v60 = shapeCast _ bias shapeCasts_S64_S1x64) (t : Fin cfg3.N) :
    (dat3 (F := Ideal) V c).flushed 2 t
      = ((cfg3.win 2).blk t).view.read (Elt Ideal) (Cert.Layers.lsm (F := Ideal) (V c main_v59) bias) := by
  show (cfg3.win 2).cut (grid3.coords t) ((dat3 V c).after 2 t) = _
  rw [after3_2]
  unfold out3_2
  rw [View.canon_unit_zero zero_offsets]
  simp only [View.ld_unit_zero (S := S2000x64) zero_offsets, View.ld_unit_zero (S := S1x64) zero_offsets]
  obtain ⟨-, -, -, -, e0, e1⟩ := block_indices t
  have hN : cfg3.N = 25 := N_3
  funext j
  show k3_pay1 (F := Ideal) (iblk3 V c 1 t) (iblk3 V c 0 t) j
    = Cert.Layers.lsm (F := Ideal) (V c main_v59) bias (((cfg3.win 2).blk t).view.emb j)
  have hj0 : (j 0).val < 2000 := (j 0).isLt
  have ht : t.val < 25 := hN ▸ t.isLt
  refine entry_eq _ _ _ _ j _ (j 0) (j 1) ⟨t.val * 2000 + (j 0).val, by omega⟩ (eq_ix2 j) ?_
    (fun k => iblk0_apply V c t (j 0) k _ rfl) (fun k => iblk1_apply V c bias hb t k)
  funext a
  apply Fin.ext
  match a with
  | ⟨0, _⟩ => show win3_2.index t (0 : Fin 2) * 2000 + 1 * (j 0).val = t.val * 2000 + (j 0).val; rw [e0]; omega
  | ⟨1, _⟩ => show win3_2.index t (1 : Fin 2) * 64 + 1 * (j 1).val = (j 1).val; rw [e1]; omega

/-- An index of the array is in point `t`'s block iff each coordinate is in the block's range on its axis. -/
theorem mem_block_iff (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v61).slice (win3_2.rect t)).set ↔ _
  rw [View.set_slice_whole, Rect.mem_set_unit]
  exact Iff.rfl

/-- The 25 row blocks tile the 50000 rows: row `n` lies in the block of point `n / 2000`. -/
theorem rows_covered (i : S50000x64.Idx) : ∃ t : Fin cfg3.N, (cfg3.win 2).flush t = true ∧ i ∈ ((cfg3.win 2).blk t).view.set := by
  have hN : cfg3.N = 25 := N_3
  have hi0 : (i 0).val < 50000 := (i 0).isLt
  have hi1 : (i 1).val < 64 := (i 1).isLt
  refine ⟨⟨(i 0).val / 2000, by rw [hN]; omega⟩, flush3_2 _, ?_⟩
  obtain ⟨-, -, -, -, e0, e1⟩ := block_indices ⟨(i 0).val / 2000, by rw [hN]; omega⟩
  rw [mem_block_iff]
  intro a
  match a with
  | ⟨0, _⟩ =>
    show win3_2.index _ (0 : Fin 2) * 2000 ≤ (i 0).val ∧ (i 0).val < win3_2.index _ (0 : Fin 2) * 2000 + 2000
    rw [e0]; show (i 0).val / 2000 * 2000 ≤ (i 0).val ∧ (i 0).val < (i 0).val / 2000 * 2000 + 2000; omega
  | ⟨1, _⟩ =>
    show win3_2.index _ (1 : Fin 2) * 64 ≤ (i 1).val ∧ (i 1).val < win3_2.index _ (1 : Fin 2) * 64 + 64
    rw [e1]; omega

/-- After the region, its output array is the row-wise log-softmax of its input plus the bias, when the one-row bias
    window holds the bias vector laid out as a row. -/
theorem array_eq (c : Dev nD) (b : (⟨S64, .f32⟩ : BufTy).Contents (Elt Ideal))
    (hb : V c main_v60 = shapeCast _ b shapeCasts_S64_S1x64) :
    (dat3 (F := Ideal) V c).arrAt 2 cfg3.N = Cert.Layers.lsm (F := Ideal) (V c main_v59) b :=
  (dat3 (F := Ideal) V c).arrAt_eq_of_cover 2 (Cert.Layers.lsm (F := Ideal) (V c main_v59) b)
    (fun t _ => written_back_eq V c b hb t) rows_covered

end Cert.KernelIdeal.Region3

end
-- ==== Proof.LibStagedRun.lean ====
/-
  Reading a long straight line of host operations in stages.

  The contents a line of host operations leaves (`StableHlo.after`) can be read one buffer at a time by rewriting each
  operation's result. Read in one go, a value that several later operations use is copied once per use, and a line of
  a hundred operations over a graph's index arrays no longer fits. Three tools keep it small.

  * `after_take_drop`: the fold over a line is the fold over its first k operations followed by the fold over the
    rest. Cut the line at the mathematical boundaries, give the contents after each cut a name by a `def` (so that it
    stays folded), and read each stage's buffers as functions of the named contents of the stage before.
  * `results_rw`: after the one-pass reading (`after_results_simp`), which shares every value but does not look
    inside the pieces of a concatenation, this rewriting loop reads what is left there.
  * `cast_there_and_back`: the operations of a module-local function are written at their tensor types and moved to
    their buffers' types and back; after a reading these moves come in pairs around every intermediate value, and
    rewriting with this lemma removes each pair without ever computing a buffer's type.
-/
import Idealize.ShloMosaic.Lib.StableHlo.Run

namespace Cert.Lib.StagedRun

open Idealize.ShloMosaic Idealize.ShloMosaic.StableHlo

/-- Reads what is left of a fold after the one-pass reading: each operation's result at its own buffer, any other
    buffer as it was, also inside the pieces of a concatenation. -/
macro "results_rw" : tactic => `(tactic| (repeat (first
  | rw [nullary_result] | rw [unary_result] | rw [binary_result] | rw [ternary_result] | rw [quaternary_result]
  | rw [reshape_result]
  | (rw [nullary_result_ne]; rotate_left; decide)
  | (rw [unary_result_ne]; rotate_left; decide)
  | (rw [binary_result_ne]; rotate_left; decide)
  | (rw [ternary_result_ne]; rotate_left; decide)
  | (rw [quaternary_result_ne]; rotate_left; decide)
  | (rw [reshape_result_ne]; rotate_left; decide))))

variable {τ : Topo} {sig : RefSig} {Val : EltTy → Type}

/-- Folding a line of operations is folding its first k and then the rest. -/
theorem after_take_drop (L : List (HloOp τ sig Val)) (k : Nat) (V : Valuation τ sig Val) :
    after L V = after (L.drop k) (after (L.take k) V) := by
  induction k generalizing L V with
  | zero => rfl
  | succ k ih =>
    cases L with
    | nil => rfl
    | cons op l => exact ih l (op.result V)

/-- Moving a value along an equation of types and back gives the value. -/
theorem cast_there_and_back {α β : Sort _} (h : α = β) (h' : β = α) (v : α) : cast h' (cast h v) = v := by
  subst h; rfl

end Cert.Lib.StagedRun
-- ==== Proof.Chain.lean ====
/-
  The result array, read back through the run.

  The run's buffer contents change at nine boundaries: three stretches of host operations compute, from the edge list
  alone, the source and target node of every pair and the pair weights; the first region leaves x · W₁; a host stretch
  sums it over incoming pairs and lays the first bias out as a row; the second region applies the hidden activation,
  the third multiplies by W₂; a host stretch sums that over incoming pairs and lays the second bias out as a row; the
  fourth region takes the row-wise log-softmax. A buffer that a segment does not write keeps its contents across it,
  so the index pieces computed before the first region are still there when the two summing stretches read them, and
  each of those stretches applies to them the very operations of the layers' description.
-/
import proofs.«124619_j9998683865528_1_alg».proof.Proof.Region0
import proofs.«124619_j9998683865528_1_alg».proof.Proof.Region1
import proofs.«124619_j9998683865528_1_alg».proof.Proof.Region2
import proofs.«124619_j9998683865528_1_alg».proof.Proof.Region3
import proofs.«124619_j9998683865528_1_alg».proof.Proof.LibStagedRun

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.Lib.StagedRun

section Host

variable {F : FTy → Type} [FloatOps F]
variable (m : (ℓ : Loc nD τ sig) → Buf (Elt F) ℓ) (ρ : Dev nD → PrngReg)

/-! ## Before the first region: the index pieces, from the edge list alone -/

/-- The source node of every pair. -/
theorem entry_src (c : Dev nD) :
    W3 m ρ c (Proc.devRef .tc main_v3) = Cert.Layers.src (F := F) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

/-- The target node of every pair. -/
theorem entry_dst (c : Dev nD) :
    W3 m ρ c (Proc.devRef .tc main_v6) = Cert.Layers.dst (F := F) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

set_option maxHeartbeats 1000000 in
/-- The weight of every pair. -/
theorem entry_norm (c : Dev nD) :
    W3 m ρ c (Proc.devRef .tc main_v29) = Cert.Layers.norm (F := F) (m ((c : Thread nD τ).loc main_arg1)) := by
  show StableHlo.after hostOps0_2 (StableHlo.after hostOps0_1 (StableHlo.after hostOps0 (W0 m ρ c))) (Proc.devRef .tc main_v29) = _
  dsimp only [hostOps0, hostOps0_1, hostOps0_2]
  after_results_simp
  results_rw
  rfl

/-! ## What a segment does not write, it keeps -/

/-- None of a stretch's operations writes the buffer. -/
macro "not_written" : tactic => `(tactic| (
  refine List.forall_iff_forall_mem.mp ?_
  simp only [hostOps0, hostOps0_1, hostOps0_2, hostOps1, hostOps3, List.flatten_cons, List.flatten_nil, List.append_nil,
    List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-- A buffer the three first stretches do not write is, when the first region is entered, as launched. -/
theorem entry_kept (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- A buffer that is no array of the first region and that the stretch after it does not write is, when the second
    region is entered, as when the first was. -/
theorem second_kept (c : Dev nD) (b : Ref sig .tc) (hr : ∀ w, Pipeline.arrRef spec0 w ≠ b)
    (h : ∀ op ∈ (hostOps1 : List (HloOp τ sig (Elt F))), Proc.devRef .tc b ∉ op.writes) :
    W5 m ρ c (Proc.devRef .tc b) = W3 m ρ c (Proc.devRef .tc b) :=
  (StableHlo.after_of_forall_not_mem _ _ h).trans (W4_of_ne m ρ c b hr)

/-- A buffer that is no array of the second or third region is, after the third, as when the second was entered. -/
theorem third_kept (c : Dev nD) (b : Ref sig .tc) (h1 : ∀ w, Pipeline.arrRef spec1 w ≠ b) (h2 : ∀ w, Pipeline.arrRef spec2 w ≠ b) :
    W7 m ρ c (Proc.devRef .tc b) = W5 m ρ c (Proc.devRef .tc b) :=
  (W7_of_ne m ρ c b h2).trans (W6_of_ne m ρ c b h1)

/-! ## The arguments and the index pieces at the boundaries where they are read -/

theorem x_at_first (c : Dev nD) : W3 m ρ c (Proc.devRef .tc main_arg0) = m ((c : Thread nD τ).loc main_arg0) :=
  entry_kept m ρ c main_arg0 (by not_written) (by not_written) (by not_written)
theorem w1_at_first (c : Dev nD) : W3 m ρ c (Proc.devRef .tc main_arg2) = m ((c : Thread nD τ).loc main_arg2) :=
  entry_kept m ρ c main_arg2 (by not_written) (by not_written) (by not_written)
theorem b1_after_first (c : Dev nD) : W4 m ρ c (Proc.devRef .tc main_arg3) = m ((c : Thread nD τ).loc main_arg3) :=
  (W4_of_ne m ρ c main_arg3 (by decide)).trans (entry_kept m ρ c main_arg3 (by not_written) (by not_written) (by not_written))
theorem src_after_first (c : Dev nD) : W4 m ρ c (Proc.devRef .tc main_v3) = Cert.Layers.src (F := F) (m ((c : Thread nD τ).loc main_arg1)) :=
  (W4_of_ne m ρ c main_v3 (by decide)).trans (entry_src m ρ c)
theorem dst_after_first (c : Dev nD) : W4 m ρ c (Proc.devRef .tc main_v6) = Cert.Layers.dst (F := F) (m ((c : Thread nD τ).loc main_arg1)) :=
  (W4_of_ne m ρ c main_v6 (by decide)).trans (entry_dst m ρ c)
theorem norm_after_first (c : Dev nD) : W4 m ρ c (Proc.devRef .tc main_v29) = Cert.Layers.norm (F := F) (m ((c : Thread nD τ).loc main_arg1)) :=
  (W4_of_ne m ρ c main_v29 (by decide)).trans (entry_norm m ρ c)
theorem mask_at_second (c : Dev nD) : W5 m ρ c (Proc.devRef .tc main_arg6) = m ((c : Thread nD τ).loc main_arg6) :=
  (second_kept m ρ c main_arg6 (by decide) (by not_written)).trans (entry_kept m ρ c main_arg6 (by not_written) (by not_written) (by not_written))
theorem w2_at_third (c : Dev nD) : W6 m ρ c (Proc.devRef .tc main_arg4) = m ((c : Thread nD τ).loc main_arg4) :=
  (W6_of_ne m ρ c main_arg4 (by decide)).trans ((second_kept m ρ c main_arg4 (by decide) (by not_written)).trans
    (entry_kept m ρ c main_arg4 (by not_written) (by not_written) (by not_written)))
theorem b2_after_third (c : Dev nD) : W7 m ρ c (Proc.devRef .tc main_arg5) = m ((c : Thread nD τ).loc main_arg5) :=
  (third_kept m ρ c main_arg5 (by decide) (by decide)).trans ((second_kept m ρ c main_arg5 (by decide) (by not_written)).trans
    (entry_kept m ρ c main_arg5 (by not_written) (by not_written) (by not_written)))
theorem src_after_third (c : Dev nD) : W7 m ρ c (Proc.devRef .tc main_v3) = Cert.Layers.src (F := F) (m ((c : Thread nD τ).loc main_arg1)) :=
  (third_kept m ρ c main_v3 (by decide) (by decide)).trans ((second_kept m ρ c main_v3 (by decide) (by not_written)).trans (entry_src m ρ c))
theorem dst_after_third (c : Dev nD) : W7 m ρ c (Proc.devRef .tc main_v6) = Cert.Layers.dst (F := F) (m ((c : Thread nD τ).loc main_arg1)) :=
  (third_kept m ρ c main_v6 (by decide) (by decide)).trans ((second_kept m ρ c main_v6 (by decide) (by not_written)).trans (entry_dst m ρ c))
theorem norm_after_third (c : Dev nD) : W7 m ρ c (Proc.devRef .tc main_v29) = Cert.Layers.norm (F := F) (m ((c : Thread nD τ).loc main_arg1)) :=
  (third_kept m ρ c main_v29 (by decide) (by decide)).trans ((second_kept m ρ c main_v29 (by decide) (by not_written)).trans (entry_norm m ρ c))

/-! ## The two summing stretches -/

/-- After the first region, the host sums its output over incoming pairs: the layers' `agg256` of it. -/
theorem summed_hidden (c : Dev nD) :
    W5 m ρ c (Proc.devRef .tc main_v43)
      = Cert.Layers.agg256 (F := F) (W4 m ρ c (Proc.devRef .tc main_v30)) (m ((c : Thread nD τ).loc main_arg1)) := by
  show StableHlo.after hostOps1 (W4 m ρ c) (Proc.devRef .tc main_v43) = _
  dsimp only [hostOps1]
  after_results
  rw [src_after_first, dst_after_first, norm_after_first]
  rfl

/-- The same stretch lays the first bias out as a row. -/
theorem bias_row_hidden (c : Dev nD) :
    W5 m ρ c (Proc.devRef .tc main_v44) = shapeCast _ (m ((c : Thread nD τ).loc main_arg3)) shapeCasts_S256_S1x256 := by
  show StableHlo.after hostOps1 (W4 m ρ c) (Proc.devRef .tc main_v44) = _
  dsimp only [hostOps1]
  after_results
  rw [b1_after_first]
  rfl

/-- After the third region, the host sums its output over incoming pairs: the layers' `agg64` of it. -/
theorem summed_out (c : Dev nD) :
    W8 m ρ c (Proc.devRef .tc main_v59)
      = Cert.Layers.agg64 (F := F) (W7 m ρ c (Proc.devRef .tc main_v46)) (m ((c : Thread nD τ).loc main_arg1)) := by
  show StableHlo.after hostOps3 (W7 m ρ c) (Proc.devRef .tc main_v59) = _
  dsimp only [hostOps3]
  after_results
  rw [src_after_third, dst_after_third, norm_after_third]
  rfl

/-- The same stretch lays the second bias out as a row. -/
theorem bias_row_out (c : Dev nD) :
    W8 m ρ c (Proc.devRef .tc main_v60) = shapeCast _ (m ((c : Thread nD τ).loc main_arg5)) shapeCasts_S64_S1x64 := by
  show StableHlo.after hostOps3 (W7 m ρ c) (Proc.devRef .tc main_v60) = _
  dsimp only [hostOps3]
  after_results
  rw [b2_after_third]
  rfl

end Host

section Ideal

variable (m : (ℓ : Loc nD τ sig) → Buf (Elt Ideal) ℓ) (ρ : Dev nD → PrngReg)

/-! ## The four regions, each on what the run hands it -/

/-- The first region leaves x · W₁. -/
theorem hidden_dense (c : Dev nD) :
    W4 m ρ c (Proc.devRef .tc main_v30) = Cert.Layers.dense1 (F := Ideal) (m ((c : Thread nD τ).loc main_arg0)) (m ((c : Thread nD τ).loc main_arg2)) :=
  (W4_arr m ρ c 2).trans ((Region0.array_eq (V3 m ρ) c).trans
    (congrArg₂ (Cert.Layers.dense1 (F := Ideal)) (x_at_first m ρ c) (w1_at_first m ρ c)))

/-- The second region leaves the hidden activation of the summed product. -/
theorem hidden_act (c : Dev nD) :
    W6 m ρ c (Proc.devRef .tc main_v45)
      = Cert.Layers.act1 (F := Ideal) (Cert.Layers.agg256 (Cert.Layers.dense1 (m ((c : Thread nD τ).loc main_arg0)) (m ((c : Thread nD τ).loc main_arg2))) (m ((c : Thread nD τ).loc main_arg1))) (m ((c : Thread nD τ).loc main_arg3)) (m ((c : Thread nD τ).loc main_arg6)) :=
  (W6_arr m ρ c 3).trans ((Region1.array_eq (V5 m ρ) c (m ((c : Thread nD τ).loc main_arg3)) (bias_row_hidden m ρ c)).trans
    (congrArg₂ (fun a k => Cert.Layers.act1 (F := Ideal) a (m ((c : Thread nD τ).loc main_arg3)) k)
      ((summed_hidden m ρ c).trans (congrArg (fun h => Cert.Layers.agg256 (F := Ideal) h (m ((c : Thread nD τ).loc main_arg1))) (hidden_dense m ρ c)))
      (mask_at_second m ρ c)))

/-- The third region leaves that times W₂. -/
theorem out_dense (c : Dev nD) :
    W7 m ρ c (Proc.devRef .tc main_v46)
      = Cert.Layers.dense2 (F := Ideal) (Cert.Layers.act1 (Cert.Layers.agg256 (Cert.Layers.dense1 (m ((c : Thread nD τ).loc main_arg0)) (m ((c : Thread nD τ).loc main_arg2))) (m ((c : Thread nD τ).loc main_arg1))) (m ((c : Thread nD τ).loc main_arg3)) (m ((c : Thread nD τ).loc main_arg6))) (m ((c : Thread nD τ).loc main_arg4)) :=
  (W7_arr m ρ c 2).trans ((Region2.array_eq (V6 m ρ) c).trans
    (congrArg₂ (Cert.Layers.dense2 (F := Ideal)) (hidden_act m ρ c) (w2_at_third m ρ c)))

/-- The fourth region leaves the network's result: the result array after the run is the network of the arguments. -/
theorem result_eq_network (c : Dev nD) :
    W9 m ρ c (Proc.devRef .tc main_v61)
      = Cert.Layers.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans ((Region3.array_eq (V8 m ρ) c (m ((c : Thread nD τ).loc main_arg5)) (bias_row_out m ρ c)).trans
    (congrArg (fun z => Cert.Layers.lsm (F := Ideal) z (m ((c : Thread nD τ).loc main_arg5)))
      ((summed_out m ρ c).trans (congrArg (fun h => Cert.Layers.agg64 (F := Ideal) h (m ((c : Thread nD τ).loc main_arg1))) (out_dense m ρ c)))))

end Ideal

end Cert.KernelIdeal.Chain

end
-- ==== Proof.RefSide.lean ====
/-
  The reference's result is the network of the layers' description.

  The reference's run leaves its result at the fold of its 118 host operations over the launch contents. The fold is
  read in six stages cut at the layers: (1) the pair endpoints, the degrees and the pair weights from the edge list,
  and x · W₁; (2) the weighted sum over incoming pairs; (3) bias, max with 0, mask, and the product with W₂; (4) the
  pair weights once more, by the same operations of the same edge list; (5) the weighted sum again; (6) bias and the
  row-wise log-softmax. Each stage's result is the layer's function of what the stage before left, and a buffer a
  stage does not write is read through it unchanged; the contents after each stage stay folded, so no stage's term
  is ever copied into the next.
-/
import proofs.«124619_j9998683865528_1_alg».proof.Proof.RefRun
import proofs.«124619_j9998683865528_1_alg».proof.Proof.Layers
import proofs.«124619_j9998683865528_1_alg».proof.Proof.LibStagedRun

set_option maxRecDepth 16384

noncomputable section

namespace Cert.ReferenceIdeal.RefSide

open Cert.ReferenceIdeal Cert.ReferenceIdeal.Gen Cert.ReferenceIdeal.RefRun Cert.Layers
open Idealize.ShloMosaic Idealize.ShloMosaic.TcCoe Idealize.SL.Sem Idealize.ShloMosaic.StableHlo
open Cert.Lib.StagedRun

variable {F : FTy → Type} [FloatOps F]

variable (m : (ℓ : Loc nD τ sig) → Buf (Elt F) ℓ) (c : Dev nD)

/-! ## The contents after each stage -/

/-- After the index pieces and the first product (operations 1 to 41). -/
def U1 : Valuation τ sig (Elt F) := after (ops.take 41) (launchContents m c)
/-- After the first weighted sum (operations 42 to 57). -/
def U2 : Valuation τ sig (Elt F) := after ((ops.drop 41).take 16) (U1 m c)
/-- After the hidden activation and the second product (operations 58 to 65). -/
def U3 : Valuation τ sig (Elt F) := after ((ops.drop 57).take 8) (U2 m c)
/-- After the pair weights' second computation (operations 66 to 84). -/
def U4 : Valuation τ sig (Elt F) := after ((ops.drop 65).take 19) (U3 m c)
/-- After the second weighted sum (operations 85 to 100). -/
def U5 : Valuation τ sig (Elt F) := after ((ops.drop 84).take 16) (U4 m c)

/-- The whole fold is the last stage's fold over what the five before it left. -/
theorem fold_stages : after ops (launchContents m c) = after (ops.drop 100) (U5 m c) := by
  unfold U5 U4 U3 U2 U1
  rw [after_take_drop ops 41, after_take_drop (ops.drop 41) 16, List.drop_drop, after_take_drop (ops.drop (41 + 16)) 8,
    List.drop_drop, after_take_drop (ops.drop (41 + 16 + 8)) 19, List.drop_drop,
    after_take_drop (ops.drop (41 + 16 + 8 + 19)) 16, List.drop_drop]

/-! ## Stage 1: the index pieces and x · W₁ -/

/-- The source node of every pair. -/
theorem s1_src : U1 m c (Proc.devRef .tc main_v3) = src (F := F) (m ((c.tc : Thread nD τ).loc main_arg1)) := by
  show after (ops.take 41) (launchContents m c) (Proc.devRef .tc main_v3) = _
  simp only [ops, List.take_succ_cons, List.take_zero, List.drop_succ_cons, List.drop_zero]
  after_results
  rfl

/-- The target node of every pair. -/
theorem s1_dst : U1 m c (Proc.devRef .tc main_v6) = dst (F := F) (m ((c.tc : Thread nD τ).loc main_arg1)) := by
  show after (ops.take 41) (launchContents m c) (Proc.devRef .tc main_v6) = _
  simp only [ops, List.take_succ_cons, List.take_zero, List.drop_succ_cons, List.drop_zero]
  after_results
  rfl

set_option maxHeartbeats 1000000 in
/-- 1/√deg of every node. -/
theorem s1_invSqrtDeg : U1 m c (Proc.devRef .tc main_v14) = invSqrtDeg (F := F) (m ((c.tc : Thread nD τ).loc main_arg1)) := by
  show after (ops.take 41) (launchContents m c) (Proc.devRef .tc main_v14) = _
  simp only [ops, List.take_succ_cons, List.take_zero, List.drop_succ_cons, List.drop_zero]
  after_results_simp
  results_rw
  rfl

set_option maxHeartbeats 1000000 in
/-- The weight of every pair. -/
theorem s1_norm : U1 m c (Proc.devRef .tc main_v30) = norm (F := F) (m ((c.tc : Thread nD τ).loc main_arg1)) := by
  show after (ops.take 41) (launchContents m c) (Proc.devRef .tc main_v30) = _
  simp only [ops, List.take_succ_cons, List.take_zero, List.drop_succ_cons, List.drop_zero]
  after_results_simp
  results_rw
  rfl

/-- x · W₁. -/
theorem s1_dense : U1 m c (Proc.devRef .tc main_v15) = dense1 (F := F) (m ((c.tc : Thread nD τ).loc main_arg0)) (m ((c.tc : Thread nD τ).loc main_arg2)) := by
  show after (ops.take 41) (launchContents m c) (Proc.devRef .tc main_v15) = _
  simp only [ops, List.take_succ_cons, List.take_zero, List.drop_succ_cons, List.drop_zero]
  after_results
  rfl

/-- The first bias, untouched. -/
theorem s1_b1 : U1 m c (Proc.devRef .tc main_arg3) = (m ((c.tc : Thread nD τ).loc main_arg3)) := by
  show after (ops.take 41) (launchContents m c) (Proc.devRef .tc main_arg3) = _
  simp only [ops, List.take_succ_cons, List.take_zero, List.drop_succ_cons, List.drop_zero]
  after_results

/-- W₂, untouched. -/
theorem s1_w2 : U1 m c (Proc.devRef .tc main_arg4) = (m ((c.tc : Thread nD τ).loc main_arg4)) := by
  show after (ops.take 41) (launchContents m c) (Proc.devRef .tc main_arg4) = _
  simp only [ops, List.take_succ_cons, List.take_zero, List.drop_succ_cons, List.drop_zero]
  after_results

/-- The second bias, untouched. -/
theorem s1_b2 : U1 m c (Proc.devRef .tc main_arg5) = (m ((c.tc : Thread nD τ).loc main_arg5)) := by
  show after (ops.take 41) (launchContents m c) (Proc.devRef .tc main_arg5) = _
  simp only [ops, List.take_succ_cons, List.take_zero, List.drop_succ_cons, List.drop_zero]
  after_results

/-- The mask, untouched. -/
theorem s1_mask : U1 m c (Proc.devRef .tc main_arg6) = (m ((c.tc : Thread nD τ).loc main_arg6)) := by
  show after (ops.take 41) (launchContents m c) (Proc.devRef .tc main_arg6) = _
  simp only [ops, List.take_succ_cons, List.take_zero, List.drop_succ_cons, List.drop_zero]
  after_results

/-! ## Stage 2: the weighted sum over incoming pairs, at width 256 -/

set_option maxHeartbeats 1000000 in
/-- The sum of x · W₁ over incoming pairs. -/
theorem s2_sum : U2 m c (Proc.devRef .tc main_v43) = agg256 (F := F) (dense1 (F := F) (m ((c.tc : Thread nD τ).loc main_arg0)) (m ((c.tc : Thread nD τ).loc main_arg2))) (m ((c.tc : Thread nD τ).loc main_arg1)) := by
  show after ((ops.drop 41).take 16) (U1 m c) (Proc.devRef .tc main_v43) = _
  simp only [ops, List.take_succ_cons, List.take_zero, List.drop_succ_cons, List.drop_zero]
  after_results
  rw [s1_src, s1_dst, s1_norm, s1_dense]
  rfl

/-- The source nodes, read through. -/
theorem s2_src : U2 m c (Proc.devRef .tc main_v3) = src (F := F) (m ((c.tc : Thread nD τ).loc main_arg1)) := by
  show after ((ops.drop 41).take 16) (U1 m c) (Proc.devRef .tc main_v3) = _
  simp only [ops, List.take_succ_cons, List.take_zero, List.drop_succ_cons, List.drop_zero]
  after_results
  rw [s1_src]

/-- The target nodes, read through. -/
theorem s2_dst : U2 m c (Proc.devRef .tc main_v6) = dst (F := F) (m ((c.tc : Thread nD τ).loc main_arg1)) := by
  show after ((ops.drop 41).take 16) (U1 m c) (Proc.devRef .tc main_v6) = _
  simp only [ops, List.take_succ_cons, List.take_zero, List.drop_succ_cons, List.drop_zero]
  after_results
  rw [s1_dst]

/-- 1/√deg, read through. -/
theorem s2_invSqrtDeg : U2 m c (Proc.devRef .tc main_v14) = invSqrtDeg (F := F) (m ((c.tc : Thread nD τ).loc main_arg1)) := by
  show after ((ops.drop 41).take 16) (U1 m c) (Proc.devRef .tc main_v14) = _
  simp only [ops, List.take_succ_cons, List.take_zero, List.drop_succ_cons, List.drop_zero]
  after_results
  rw [s1_invSqrtDeg]

/-- The first bias, read through. -/
theorem s2_b1 : U2 m c (Proc.devRef .tc main_arg3) = (m ((c.tc : Thread nD τ).loc main_arg3)) := by
  show after ((ops.drop 41).take 16) (U1 m c) (Proc.devRef .tc main_arg3) = _
  simp only [ops, List.take_succ_cons, List.take_zero, List.drop_succ_cons, List.drop_zero]
  after_results
  rw [s1_b1]

/-- W₂, read through. -/
theorem s2_w2 : U2 m c (Proc.devRef .tc main_arg4) = (m ((c.tc : Thread nD τ).loc main_arg4)) := by
  show after ((ops.drop 41).take 16) (U1 m c) (Proc.devRef .tc main_arg4) = _
  simp only [ops, List.take_succ_cons, List.take_zero, List.drop_succ_cons, List.drop_zero]
  after_results
  rw [s1_w2]

/-- The second bias, read through. -/
theorem s2_b2 : U2 m c (Proc.devRef .tc main_arg5) = (m ((c.tc : Thread nD τ).loc main_arg5)) := by
  show after ((ops.drop 41).take 16) (U1 m c) (Proc.devRef .tc main_arg5) = _
  simp only [ops, List.take_succ_cons, List.take_zero, List.drop_succ_cons, List.drop_zero]
  after_results
  rw [s1_b2]

/-- The mask, read through. -/
theorem s2_mask : U2 m c (Proc.devRef .tc main_arg6) = (m ((c.tc : Thread nD τ).loc main_arg6)) := by
  show after ((ops.drop 41).take 16) (U1 m c) (Proc.devRef .tc main_arg6) = _
  simp only [ops, List.take_succ_cons, List.take_zero, List.drop_succ_cons, List.drop_zero]
  after_results
  rw [s1_mask]

/-! ## Stage 3: the hidden activation and the product with W₂ -/

/-- max(sum + b₁, 0) · mask, times W₂. -/
theorem s3_dense : U3 m c (Proc.devRef .tc main_v49) = dense2 (F := F) (act1 (F := F) (agg256 (F := F) (dense1 (F := F) (m ((c.tc : Thread nD τ).loc main_arg0)) (m ((c.tc : Thread nD τ).loc main_arg2))) (m ((c.tc : Thread nD τ).loc main_arg1))) (m ((c.tc : Thread nD τ).loc main_arg3)) (m ((c.tc : Thread nD τ).loc main_arg6))) (m ((c.tc : Thread nD τ).loc main_arg4)) := by
  show after ((ops.drop 57).take 8) (U2 m c) (Proc.devRef .tc main_v49) = _
  simp only [ops, List.take_succ_cons, List.take_zero, List.drop_succ_cons, List.drop_zero]
  after_results
  rw [s2_sum, s2_b1, s2_mask, s2_w2]
  rfl

/-- The source nodes, read through. -/
theorem s3_src : U3 m c (Proc.devRef .tc main_v3) = src (F := F) (m ((c.tc : Thread nD τ).loc main_arg1)) := by
  show after ((ops.drop 57).take 8) (U2 m c) (Proc.devRef .tc main_v3) = _
  simp only [ops, List.take_succ_cons, List.take_zero, List.drop_succ_cons, List.drop_zero]
  after_results
  rw [s2_src]

/-- The target nodes, read through. -/
theorem s3_dst : U3 m c (Proc.devRef .tc main_v6) = dst (F := F) (m ((c.tc : Thread nD τ).loc main_arg1)) := by
  show after ((ops.drop 57).take 8) (U2 m c) (Proc.devRef .tc main_v6) = _
  simp only [ops, List.take_succ_cons, List.take_zero, List.drop_succ_cons, List.drop_zero]
  after_results
  rw [s2_dst]

/-- 1/√deg, read through. -/
theorem s3_invSqrtDeg : U3 m c (Proc.devRef .tc main_v14) = invSqrtDeg (F := F) (m ((c.tc : Thread nD τ).loc main_arg1)) := by
  show after ((ops.drop 57).take 8) (U2 m c) (Proc.devRef .tc main_v14) = _
  simp only [ops, List.take_succ_cons, List.take_zero, List.drop_succ_cons, List.drop_zero]
  after_results
  rw [s2_invSqrtDeg]

/-- The second bias, read through. -/
theorem s3_b2 : U3 m c (Proc.devRef .tc main_arg5) = (m ((c.tc : Thread nD τ).loc main_arg5)) := by
  show after ((ops.drop 57).take 8) (U2 m c) (Proc.devRef .tc main_arg5) = _
  simp only [ops, List.take_succ_cons, List.take_zero, List.drop_succ_cons, List.drop_zero]
  after_results
  rw [s2_b2]

/-! ## Stage 4: the pair weights once more -/

set_option maxHeartbeats 1000000 in
/-- The weight of every pair, computed a second time by the same operations. -/
theorem s4_norm : U4 m c (Proc.devRef .tc main_v64) = norm (F := F) (m ((c.tc : Thread nD τ).loc main_arg1)) := by
  show after ((ops.drop 65).take 19) (U3 m c) (Proc.devRef .tc main_v64) = _
  simp only [ops, List.take_succ_cons, List.take_zero, List.drop_succ_cons, List.drop_zero]
  after_results
  rw [s3_src, s3_dst, s3_invSqrtDeg]
  rfl

/-- The source nodes, read through. -/
theorem s4_src : U4 m c (Proc.devRef .tc main_v3) = src (F := F) (m ((c.tc : Thread nD τ).loc main_arg1)) := by
  show after ((ops.drop 65).take 19) (U3 m c) (Proc.devRef .tc main_v3) = _
  simp only [ops, List.take_succ_cons, List.take_zero, List.drop_succ_cons, List.drop_zero]
  after_results
  rw [s3_src]

/-- The target nodes, read through. -/
theorem s4_dst : U4 m c (Proc.devRef .tc main_v6) = dst (F := F) (m ((c.tc : Thread nD τ).loc main_arg1)) := by
  show after ((ops.drop 65).take 19) (U3 m c) (Proc.devRef .tc main_v6) = _
  simp only [ops, List.take_succ_cons, List.take_zero, List.drop_succ_cons, List.drop_zero]
  after_results
  rw [s3_dst]

/-- The second product, read through. -/
theorem s4_dense : U4 m c (Proc.devRef .tc main_v49) = dense2 (F := F) (act1 (F := F) (agg256 (F := F) (dense1 (F := F) (m ((c.tc : Thread nD τ).loc main_arg0)) (m ((c.tc : Thread nD τ).loc main_arg2))) (m ((c.tc : Thread nD τ).loc main_arg1))) (m ((c.tc : Thread nD τ).loc main_arg3)) (m ((c.tc : Thread nD τ).loc main_arg6))) (m ((c.tc : Thread nD τ).loc main_arg4)) := by
  show after ((ops.drop 65).take 19) (U3 m c) (Proc.devRef .tc main_v49) = _
  simp only [ops, List.take_succ_cons, List.take_zero, List.drop_succ_cons, List.drop_zero]
  after_results
  rw [s3_dense]

/-- The second bias, read through. -/
theorem s4_b2 : U4 m c (Proc.devRef .tc main_arg5) = (m ((c.tc : Thread nD τ).loc main_arg5)) := by
  show after ((ops.drop 65).take 19) (U3 m c) (Proc.devRef .tc main_arg5) = _
  simp only [ops, List.take_succ_cons, List.take_zero, List.drop_succ_cons, List.drop_zero]
  after_results
  rw [s3_b2]

/-! ## Stage 5: the weighted sum over incoming pairs, at width 64 -/

set_option maxHeartbeats 1000000 in
/-- The sum of the second product over incoming pairs. -/
theorem s5_sum : U5 m c (Proc.devRef .tc main_v77) = agg64 (F := F) (dense2 (F := F) (act1 (F := F) (agg256 (F := F) (dense1 (F := F) (m ((c.tc : Thread nD τ).loc main_arg0)) (m ((c.tc : Thread nD τ).loc main_arg2))) (m ((c.tc : Thread nD τ).loc main_arg1))) (m ((c.tc : Thread nD τ).loc main_arg3)) (m ((c.tc : Thread nD τ).loc main_arg6))) (m ((c.tc : Thread nD τ).loc main_arg4))) (m ((c.tc : Thread nD τ).loc main_arg1)) := by
  show after ((ops.drop 84).take 16) (U4 m c) (Proc.devRef .tc main_v77) = _
  simp only [ops, List.take_succ_cons, List.take_zero, List.drop_succ_cons, List.drop_zero]
  after_results
  rw [s4_src, s4_dst, s4_norm, s4_dense]
  rfl

/-- The second bias, read through. -/
theorem s5_b2 : U5 m c (Proc.devRef .tc main_arg5) = (m ((c.tc : Thread nD τ).loc main_arg5)) := by
  show after ((ops.drop 84).take 16) (U4 m c) (Proc.devRef .tc main_arg5) = _
  simp only [ops, List.take_succ_cons, List.take_zero, List.drop_succ_cons, List.drop_zero]
  after_results
  rw [s4_b2]

/-! ## Stage 6: bias and the row-wise log-softmax -/

set_option maxHeartbeats 1000000 in
/-- The reference's result, as the fold of its operations over the launch contents, is the network of the arguments. -/
theorem result_eq_network :
    after ops (launchContents m c) (Proc.devRef .tc main_v81)
      = network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [fold_stages]
  simp only [ops, List.drop_succ_cons, List.drop_zero]
  after_results_simp
  simp only [cast_there_and_back]
  rw [s5_sum, s5_b2]
  rfl

end Cert.ReferenceIdeal.RefSide

end
-- ==== Proof.lean ====
/-
  A two-layer graph convolution as four pallas_calls around the host's gather and scatter-add, against the same
  network written in plain jnp: equal results over the extended reals.

  Both programs compute, on 50000 nodes with 800000 edges and a self-loop per node,
      log_softmax( Â · ( max(Â · (x W₁) + b₁, 0) ⊙ mask ) W₂ + b₂ ),
  where Â sums, for every node, the source rows of the pairs that end in it, each weighted by
  1/√deg(src) · 1/√deg(dst). The kernel keeps the index-dependent steps (endpoints, degrees, weights, the gather and
  the scatter-add) as the very host operations of the reference and replaces only the two dense products and the two
  elementwise chains by calls tiled over 25 blocks of 2000 rows. A row block of a product contracts over the whole
  shared axis, the activation acts entry by entry, and a row's log-softmax reads only its own 64 columns, so each
  call leaves in its output array exactly the reference's layer of the arrays it found; the changes of float format on
  the way into the products are the identity on the ideal values. No algebraic law beyond reading the same sums is
  used, so the precondition is never opened.

  The pieces: `Layers` (the network, layer by layer), `Region0` … `Region3` (each call's output array is its
  layer of the call's input arrays), `Chain` (the result array read back through the run's nine segments),
  `KernelRun` (the kernel's run with the result array in its post), `RefRun` (the reference's run, its result at
  the fold of its host operations) and `RefSide` (that fold, read in six stages, as the network).
-/
import proofs.«124619_j9998683865528_1_alg».proof.Defs
import proofs.«124619_j9998683865528_1_alg».proof.Proof.Gen.Kernel
import proofs.«124619_j9998683865528_1_alg».proof.Proof.Gen.Kernel.Frame
import proofs.«124619_j9998683865528_1_alg».proof.Proof.Gen.KernelIdeal
import proofs.«124619_j9998683865528_1_alg».proof.Proof.Gen.KernelIdeal.Frame
import proofs.«124619_j9998683865528_1_alg».proof.Proof.Gen.ReferenceIdeal
import proofs.«124619_j9998683865528_1_alg».proof.Proof.Gen.Pre_finite_inputs
import proofs.«124619_j9998683865528_1_alg».proof.Proof.KernelRun
import proofs.«124619_j9998683865528_1_alg».proof.Proof.Chain
import proofs.«124619_j9998683865528_1_alg».proof.Proof.RefRun
import proofs.«124619_j9998683865528_1_alg».proof.Proof.RefSide
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernel_ideal : Cert.frame_KernelIdeal := fun m ρ _ => Cert.KernelIdeal.Gen.frame m ρ

/-- The idealized reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- From memories that agree on the arguments, both programs end with the network of the arguments in their result
    arrays. -/
theorem algebraic : Cert.algebraic_KernelIdeal_ReferenceIdeal := by
  intro m ρ m' ρ' _ hagree
  refine ⟨fun c => Cert.Layers.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Chain.result_eq_network m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.RefRun.run (F := Ideal) m' ρ')
    rw [Cert.ReferenceIdeal.RefSide.result_eq_network (F := Ideal) m' c, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
